-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  reducesTo_S8192x512_S8192_d1 : S8192x512.ReducesTo [1] S8192
  bcast_S_S8192 : S_.BroadcastsInDim S8192 (![] : Fin 0 → Fin S8192.rank)
  reducesTo_S8192_S_d0 : S8192.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg2 : IVec S262144 32) (main_arg3 : IVec S262144 32) (main_v9 : IVec S_ 1) (main_v15 : IVec S_ 1) : IVec S_ 1 :=
  let main_v16 : IVec S_ 1 := andi main_v9 main_v15
  let main_c_6 : IVec S_ 32 := constantI S_ 32 0#32
  let main_v17 : IVec S262144 32 := broadcastInDim S262144 ![] bcast_S_S262144 main_c_6
  let main_v18 : IVec S262144 1 := cmpi .sge main_arg2 main_v17
  let main_c_7 : IVec S_ 32 := constantI S_ 32 8192#32
  let main_v19 : IVec S262144 32 := broadcastInDim S262144 ![] bcast_S_S262144 main_c_7
  let main_v20 : IVec S262144 1 := cmpi .slt main_arg2 main_v19
  let main_v21 : IVec S262144 1 := andi main_v18 main_v20
  let main_c_8 : IVec S_ 1 := constantI S_ 1 1#1
  let main_v22 : IVec S_ 1 := (fun x v => Host.reduce IntOp.andi x v reducesTo_S262144_S_d0 h_S_) main_v21 main_c_8
  let main_v23 : IVec S_ 1 := andi main_v16 main_v22
  let main_c_9 : IVec S_ 32 := constantI S_ 32 0#32
  let main_v24 : IVec S262144 32 := broadcastInDim S262144 ![] bcast_S_S262144 main_c_9
  let main_v25 : IVec S262144 1 := cmpi .sge main_arg3 main_v24
  let main_c_10 : IVec S_ 32 := constantI S_ 32 8192#32
  let main_v26 : IVec S262144 32 := broadcastInDim S262144 ![] bcast_S_S262144 main_c_10
  let main_v27 : IVec S262144 1 := cmpi .slt main_arg3 main_v26
  let main_v28 : IVec S262144 1 := andi main_v25 main_v27
  let main_c_11 : IVec S_ 1 := constantI S_ 1 1#1
  let main_v29 : IVec S_ 1 := (fun x v => Host.reduce IntOp.andi x v reducesTo_S262144_S_d0 h_S_) main_v28 main_c_11
  let main_v30 : IVec S_ 1 := andi main_v23 main_v29
  main_v30

def fn {F : FTy → Type} [FloatOps F] (main_arg0 : FVec F S8192x512 .f32) (main_arg1 : IVec S262144 32) (main_arg2 : IVec S262144 32) (main_arg3 : IVec S262144 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := mulf main_arg0 main_arg0
  let main_cst_0 : FVec F S_ .f32 := constant S_ .f32 0x00000000#32
  let main_v5 : FVec F S8192 .f32 := (fun x v => Host.reduceAdd x v reducesTo_S8192x512_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  let main_c_3 : IVec S_ 32 := constantI S_ 32 0#32
  let main_v10 : IVec S262144 32 := broadcastInDim S262144 ![] bcast_S_S262144 main_c_3
  let main_v11 : IVec S262144 1 := cmpi .sge main_arg1 main_v10
  let main_c_4 : IVec S_ 32 := constantI S_ 32 8192#32
  let main_v12 : IVec S262144 32 := broadcastInDim S262144 ![] bcast_S_S262144 main_c_4
  let main_v13 : IVec S262144 1 := cmpi .slt main_arg1 main_v12
  let main_v14 : IVec S262144 1 := andi main_v11 main_v13
  let main_c_5 : IVec S_ 1 := constantI S_ 1 1#1
  let main_v15 : IVec S_ 1 := (fun x v => Host.reduce IntOp.andi x v reducesTo_S262144_S_d0 h_S_) main_v14 main_c_5
  fn_part1 (F := F) main_arg2 main_arg3 main_v9 main_v15
-- ==== Kernel.lean ====
abbrev S8192x512 : Shape := ⟨2, ![8192, 512]⟩
abbrev S262144 : Shape := ⟨1, ![262144]⟩
abbrev S1024x512 : Shape := ⟨2, ![1024, 512]⟩
abbrev S1024 : Shape := ⟨1, ![1024]⟩
abbrev S1024x1 : Shape := ⟨2, ![1024, 1]⟩
abbrev S262144x1 : Shape := ⟨2, ![262144, 1]⟩
abbrev S16x128 : Shape := ⟨2, ![16, 128]⟩
abbrev S512x1 : Shape := ⟨2, ![512, 1]⟩
abbrev S8x128 : Shape := ⟨2, ![8, 128]⟩
abbrev S1x8192 : Shape := ⟨2, ![1, 8192]⟩
abbrev S512x8192 : Shape := ⟨2, ![512, 8192]⟩
abbrev S512x512 : Shape := ⟨2, ![512, 512]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 13
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S8192x512, .bf16⟩
  | .hbm, ⟨5, _⟩ => ⟨S262144x1, .i32⟩
  | .hbm, ⟨6, _⟩ => ⟨S262144x1, .i32⟩
  | .hbm, ⟨7, _⟩ => ⟨S262144x1, .i32⟩
  | .hbm, ⟨8, _⟩ => ⟨S16x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S512x1, .i32⟩
  | .local _ .vmem, ⟨8, _⟩ => ⟨S512x1, .i32⟩
  | .local _ .vmem, ⟨9, _⟩ => ⟨S512x1, .i32⟩
  | .local _ .vmem, ⟨10, _⟩ => ⟨S8192x512, .bf16⟩
  | .local _ .vmem, ⟨11, _⟩ => ⟨S8x128, .f32⟩
  | .local _ .vmem, ⟨12, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 256], ![false, false]⟩

def cc1_transform_0 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S262144_S262144x1 : S262144.ShapeCasts S262144x1
  inb_S8x128_S8x128_0_0 : ∀ a, (![0, 0] : Fin 2 → Nat) a + S8x128.size a ≤ S8x128.size a
  h_S8x128 : 0 < S8x128.numel
  iota_S1x8192_d1_w32 : S1x8192.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x8192 : S512x1.Broadcasts S512x8192
  broadcasts_S1x8192_S512x8192 : S1x8192.Broadcasts S512x8192
  natLt_1_32 : 1 < 32
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  reducesTo_S16x128_S_d0_1 : S16x128.ReducesTo [0, 1] S_
  h_S_ : 0 < S_.numel
  dot_S512x8192_S8192x512_S512x512_1_0_0_1_n_n_wf : DotDims.WF S512x8192 S8192x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S262144x1.size a
  hwx1_0 : ∀ i : grid1.Coords, EltTy.bits .i32 = 32 ∨ (Rect.block (s := S262144x1) S512x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S262144x1.size a
  hwx1_1 : ∀ i : grid1.Coords, EltTy.bits .i32 = 32 ∨ (Rect.block (s := S262144x1) S512x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S262144x1.size a
  hwx1_2 : ∀ i : grid1.Coords, EltTy.bits .i32 = 32 ∨ (Rect.block (s := S262144x1) S512x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x512.size a ≤ S8192x512.size a
  hwx1_3 : ∀ i : grid1.Coords, EltTy.bits .bf16 = 32 ∨ (Rect.block (s := S8192x512) S8192x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S16x128.size a
  hwx1_4 : ∀ i : grid1.Coords, EltTy.bits .f32 = 32 ∨ (Rect.block (s := S16x128) S8x128.size (cc1_transform_4 i) (hinb1_4 i)).WholeWords (EltTy.packing .f32)

variable [Facts₀]

def dot_S512x8192_S8192x512_S512x512_1_0_0_1_n_n : DotDims S512x8192 S8192x512 S512x512 where
  lhsContracting := [1]
  rhsContracting := [0]
  lhsNonContracting := [0]
  rhsNonContracting := [1]
  lhsBatch := []
  rhsBatch := []
  wf := dot_S512x8192_S8192x512_S512x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S8192x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x512 : Shape := ⟨2, ![8192, 512]⟩
abbrev S262144 : Shape := ⟨1, ![262144]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S8192x8192 : Shape := ⟨2, ![8192, 8192]⟩
abbrev S262144x1 : Shape := ⟨2, ![262144, 1]⟩
abbrev S262144x2 : Shape := ⟨2, ![262144, 2]⟩

abbrev nBuf : Space → Nat
  | .hbm => 63
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S8192x512, .f32⟩
  | .hbm, ⟨10, _⟩ => ⟨S8192x512, .f32⟩
  | .hbm, ⟨11, _⟩ => ⟨S512x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x1, .i32⟩
  | .hbm, ⟨32, _⟩ => ⟨S262144x2, .i32⟩
  | .hbm, ⟨33, _⟩ => ⟨S262144, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x1, .i32⟩
  | .hbm, ⟨50, _⟩ => ⟨S262144x2, .i32⟩
  | .hbm, ⟨51, _⟩ => ⟨S262144, .f32⟩
  | .hbm, ⟨52, _⟩ => ⟨S262144, .f32⟩
  | .hbm, ⟨53, _⟩ => ⟨S_, .f32⟩
  | .hbm, ⟨54, _⟩ => ⟨S262144, .f32⟩
  | .hbm, ⟨55, _⟩ => ⟨S262144, .f32⟩
  | .hbm, ⟨56, _⟩ => ⟨S_, .f32⟩
  | .hbm, ⟨57, _⟩ => ⟨S262144, .f32⟩
  | .hbm, ⟨58, _⟩ => ⟨S262144, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_call1_cst : Ref sig .tc := ⟨.hbm, 56, rfl⟩
abbrev main_call1_v0 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S262144_S_d0 : S262144.ReducesTo [0] S_
  dot_S8192x512_S512x8192_S8192x8192_1_0_0_1_n_n_wf : DotDims.WF S8192x512 S512x8192 S8192x8192 [1] [0] [0] [1] [] []
  gather_S8192x8192_S262144x2_S262144_n_01_n_n_01_1_11_wf : GatherDims.WF S8192x8192 S262144x2 S262144 [] [0, 1] [] [0, 1] [] 1 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S262144x2_S262144_n_01_n_n_01_1_11 : GatherDims S8192x8192 S262144x2 S262144 where
  offsetDims := []
  collapsedSliceDims := [0, 1]
  operandBatchingDims := []
  startIndicesBatchingDims := []
  startIndexMap := [0, 1]
  indexVectorDim := 1
  sliceSizes := ![1, 1]
  wf := gather_S8192x8192_S262144x2_S262144_n_01_n_n_01_1_11_wf

class Facts : Prop extends Facts₀ where

variable [Facts]
-- ==== Proof.Spec.lean ====
/-
  The mathematics both programs compute, over the reals.

  A table of 8192 rows of 512 reals; every row is scaled to unit length, `u n = x n / ‖x n‖`; the cosine of two rows is
  the inner product of their unit rows; a triplet (a, p, q) of row numbers costs `max (cos (a, q) - cos (a, p) + 1) 0`;
  the result is the mean cost of 262144 triplets. The kernel gets there by `x · (‖x‖²)^(-1/2)`, a selection of rows by a
  0/1 matrix product, and per-group partial sums; the reference by `x / √(‖x‖²)`, the full 8192 × 8192 matrix
  `1 - u uᵀ` and two point selections from it, whose difference `(1 - cos (a, p)) - (1 - cos (a, q))` is the same
  `cos (a, q) - cos (a, p)`.
-/
import Idealize.ShloMosaic.Lib.ValueIdx
import Idealize.ShloMosaic.PureOps.Ideal.Laws

noncomputable section

open scoped BigOperators

namespace Cert.Triplet

open Idealize.ShloMosaic Idealize.ShloMosaic.ValueIdx

/-- The squared length of row `n`. -/
def sqn (x : Fin 8192 → Fin 512 → ℝ) (n : Fin 8192) : ℝ := ∑ d : Fin 512, x n d * x n d

/-- Row `n` scaled to unit length, entry `d`. -/
def unitRow (x : Fin 8192 → Fin 512 → ℝ) (n : Fin 8192) (d : Fin 512) : ℝ := x n d * (Real.sqrt (sqn x n))⁻¹

/-- The inner product of rows `a` and `b` of a table `u` (the cosine, when `u` holds unit rows). -/
def cosU (u : Fin 8192 → Fin 512 → ℝ) (a b : Fin 8192) : ℝ := ∑ d : Fin 512, u a d * u b d

/-- The cost of the triplet (anchor `a`, positive `p`, negative `q`) with margin 1. -/
def lossU (u : Fin 8192 → Fin 512 → ℝ) (a p q : Fin 8192) : ℝ := max (cosU u a q - cosU u a p + 1) 0

/-- The row a 32-bit index word names: its value, which for a word below 8192 is the word itself. -/
def rowOf (w : BitVec 32) : Fin 8192 := ⟨w.toNat % 8192, Nat.mod_lt _ (by norm_num)⟩

theorem rowOf_val {w : BitVec 32} (h : w.toNat < 8192) : (rowOf w).val = w.toNat := Nat.mod_eq_of_lt h

/-- The triplet that group `g`, step `k`, lane `r` of the kernel's grid handles. -/
def tix (g : Fin 2) (k : Fin 256) (r : Fin 512) : Fin 262144 := ⟨(g.val * 256 + k.val) * 512 + r.val, by omega⟩

/-- The summed cost of all triplets. -/
def totalLoss (u : Fin 8192 → Fin 512 → ℝ) (A P Q : Fin 262144 → Fin 8192) : ℝ := ∑ t : Fin 262144, lossU u (A t) (P t) (Q t)

/-- The real entries of a table of extended reals (used where every entry is finite). -/
def xr (X : (⟨2, ![8192, 512]⟩ : Shape).Idx → EReal) : Fin 8192 → Fin 512 → ℝ := fun n d => (X (ix2 n d)).toReal

/-- The domain: every entry of the table a real number, no row zero, every index word a row number. -/
structure Dom (X : (⟨2, ![8192, 512]⟩ : Shape).Idx → EReal) (ia ip iq : (⟨1, ![262144]⟩ : Shape).Idx → BitVec 32) : Prop where
  fin : ∀ (n : Fin 8192) (d : Fin 512), X (ix2 n d) ≠ ⊤ ∧ X (ix2 n d) ≠ ⊥
  pos : ∀ n : Fin 8192, 0 < sqn (xr X) n
  ra : ∀ t : Fin 262144, (ia (ix1 t)).toNat < 8192
  rp : ∀ t : Fin 262144, (ip (ix1 t)).toNat < 8192
  rq : ∀ t : Fin 262144, (iq (ix1 t)).toNat < 8192

/-- The result: the mean triplet cost of the unit rows of `X` at the rows the three index arrays name. -/
def spec (X : (⟨2, ![8192, 512]⟩ : Shape).Idx → EReal) (ia ip iq : (⟨1, ![262144]⟩ : Shape).Idx → BitVec 32) : ℝ :=
  totalLoss (unitRow (xr X)) (fun t => rowOf (ia (ix1 t))) (fun t => rowOf (ip (ix1 t))) (fun t => rowOf (iq (ix1 t))) / 262144

/-- A finite entry is the coercion of its real part. -/
theorem Dom.coe_xr {X : (⟨2, ![8192, 512]⟩ : Shape).Idx → EReal} {ia ip iq : (⟨1, ![262144]⟩ : Shape).Idx → BitVec 32}
    (h : Dom X ia ip iq) (n : Fin 8192) (d : Fin 512) : X (ix2 n d) = ((xr X n d : ℝ) : EReal) :=
  (EReal.coe_toReal (h.fin n d).1 (h.fin n d).2).symm

end Cert.Triplet

end
-- ==== Proof.PreDom.lean ====
/-
  What the precondition says: read back from its printed form, it is the domain of `Spec.lean` — every table entry a
  real number, every row's squared length positive, every index word in [0, 8192).
-/
import proofs.«403355_j41497974014034_2_alg».proof.Proof.Spec
import proofs.«403355_j41497974014034_2_alg».proof.Pre_finite_inputs
import Idealize.ShloMosaic.Lib.ReduceAll
import Idealize.ShloMosaic.Lib.StableHlo.Predicate

noncomputable section

open scoped BigOperators

namespace Cert.Triplet

open Idealize.ShloMosaic Idealize.ShloMosaic.ValueIdx

namespace PreDom

/-- The scalar shape has one index. -/
theorem idx0_subsingleton : Subsingleton (⟨0, ![]⟩ : Shape).Idx := ⟨fun a b => funext fun d => d.elim0⟩

/-- A word that tests at least 0 and below 8192, both read signed, is below 8192 read unsigned: a signed value that is
    not negative is the unsigned one. -/
theorem word_lt (w : BitVec 32) (h0 : IntOp.cmpi .sge w 0#32 = 1#1) (h1 : IntOp.cmpi .slt w 8192#32 = 1#1) :
    w.toNat < 8192 := by
  rw [IntOp.cmpi_sge] at h0
  rw [IntOp.cmpi_slt] at h1
  rw [show (0#32 : BitVec 32).toInt = 0 from by decide] at h0
  rw [show (8192#32 : BitVec 32).toInt = 8192 from by decide] at h1
  have := BitVec.toInt_eq_toNat_cond w
  split at this <;> omega

/-- The f32 pattern of +∞ is the top extended real. -/
theorem ofBits_inf : Ideal.ofBits .f32 0x7F800000#32 = (⊤ : EReal) := by simp [Ideal.ofBits, Ideal.ieee]

/-- An extended real whose absolute value max a (-a) is below +∞ is neither infinity: a < ⊤ excludes ⊤, and -a < ⊤
    excludes ⊥, whose negative is ⊤. -/
theorem fin_of_abs_lt (a : EReal) (h : Ideal.cmp .olt (max a (-a)) (⊤ : EReal) = 1#1) : a ≠ ⊤ ∧ a ≠ ⊥ := by
  have h' : max a (-a) < ⊤ := of_decide_eq_true ((StableHlo.Predicate.ofBool_eq_one_iff _).1 h)
  obtain ⟨h1, h2⟩ := max_lt_iff.1 h'
  refine ⟨ne_of_lt h1, ?_⟩
  rintro rfl
  rw [EReal.neg_bot] at h2
  exact lt_irrefl _ h2

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over row n of an 8192 × 512 table, the index with column d put back on the dropped axis is (n, d). -/
theorem lift_row (hR : (⟨2, ![8192, 512]⟩ : Shape).Reduces [1] (⟨1, ![8192]⟩ : Shape)) (n : Fin 8192) (d : Fin 512) :
    hR.lift (ix1 n) d = ix2 n d := by
  funext c
  match c with
  | ⟨0, _⟩ => exact Fin.ext rfl
  | ⟨1, _⟩ => exact Fin.ext rfl

/-- The sum over axis 1 of the entrywise squares, from zero, is at row n the sum of that row's squares. -/
theorem rowsum (hR' : (⟨2, ![8192, 512]⟩ : Shape).ReducesTo [1] (⟨1, ![8192]⟩ : Shape))
    (X : (⟨2, ![8192, 512]⟩ : Shape).Idx → EReal) (n : Fin 8192) :
    Ideal.hostReduceAdd hR' (fun i => X i * X i) 0 (ix1 n) = ∑ d : Fin 512, X (ix2 n d) * X (ix2 n d) := by
  have hR : (⟨2, ![8192, 512]⟩ : Shape).Reduces [1] (⟨1, ![8192]⟩ : Shape) := by decide
  rw [Ideal.hostReduceAdd_single hR' hR, zero_add]
  refine Finset.sum_congr rfl fun d _ => ?_
  exact congrArg (fun i => X i * X i) (lift_row hR n d)

end PreDom

/-- The printed precondition, all ones, gives the domain. -/
theorem dom_of_pre [Cert.Pre_finite_inputs.Facts] (X : (⟨2, ![8192, 512]⟩ : Shape).Idx → EReal)
    (ia ip iq : (⟨1, ![262144]⟩ : Shape).Idx → BitVec 32)
    (h : Cert.Pre_finite_inputs.fn (F := Ideal) X ia ip iq = fun _ => 1#1) : Dom X ia ip iq := by
  haveI := PreDom.idx0_subsingleton
  have h0 := congrFun h ix0
  dsimp only [Cert.Pre_finite_inputs.fn, Cert.Pre_finite_inputs.fn_part1] at h0
  -- the scalar is the conjunction of five scalars
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  -- each of which is a conjunction over every element of its array
  have e1 := Host.reduce_andi_all _ _ _ _ _ h1
  have e2 := Host.reduce_andi_all _ _ _ _ _ h2
  have e3 := Host.reduce_andi_all _ _ _ _ _ h3
  have e4 := Host.reduce_andi_all _ _ _ _ _ h4
  have e5 := Host.reduce_andi_all _ _ _ _ _ h5
  clear h0 h1234 h123 h12 h1 h2 h3 h4 h5
  -- |x| < +∞ at every entry: every entry a real number
  have hfin : ∀ (n : Fin 8192) (d : Fin 512), X (ix2 n d) ≠ ⊤ ∧ X (ix2 n d) ≠ ⊥ := by
    intro n d
    have e := e1 (ix2 n d)
    change Ideal.cmp .olt (max (X (ix2 n d)) (-(X (ix2 n d)))) (Ideal.ofBits .f32 0x7F800000#32) = 1#1 at e
    rw [PreDom.ofBits_inf] at e
    exact PreDom.fin_of_abs_lt _ e
  refine ⟨hfin, ?_, ?_, ?_, ?_⟩
  · -- 0 < Σ_d x[n,d]·x[n,d] over the extended reals; the entries being real, the sum is the real sum's coercion
    intro n
    have e := e2 (ix1 n)
    change Ideal.cmp .ogt (Ideal.hostReduceAdd _ (fun i => X i * X i) (Ideal.ofBits .f32 0x00000000#32) (ix1 n))
      (Ideal.ofBits .f32 0x00000000#32) = 1#1 at e
    rw [Ideal.ofBits_zero_f32, PreDom.rowsum] at e
    have e' : (0 : EReal) < ∑ d : Fin 512, X (ix2 n d) * X (ix2 n d) :=
      of_decide_eq_true ((StableHlo.Predicate.ofBool_eq_one_iff _).1 e)
    have hc : ∀ d : Fin 512, X (ix2 n d) * X (ix2 n d) = ((xr X n d * xr X n d : ℝ) : EReal) := fun d => by
      rw [EReal.coe_mul]
      exact congrArg (fun a => a * a) (EReal.coe_toReal (hfin n d).1 (hfin n d).2).symm
    rw [Finset.sum_congr rfl fun d _ => hc d, ← PreDom.coe_sum] at e'
    exact EReal.coe_pos.1 e'
  · -- the three index arrays: 0 ≤ w and w < 8192 at every word
    intro t
    obtain ⟨a, b⟩ := IntOp.andi_eq_one.1 (e3 (ix1 t))
    exact PreDom.word_lt _ a b
  · intro t
    obtain ⟨a, b⟩ := IntOp.andi_eq_one.1 (e4 (ix1 t))
    exact PreDom.word_lt _ a b
  · intro t
    obtain ⟨a, b⟩ := IntOp.andi_eq_one.1 (e5 (ix1 t))
    exact PreDom.word_lt _ a b

end Cert.Triplet

end
-- ==== Proof.Consts.lean ====
/-
  The float words the two programs spell, as the extended reals they denote: +0.0 is 0, 0x3F800000 is 1 (the margin
  and the matrix's `1 -`), 0x48800000 is 262144 = 2¹⁸ (the number of triplets both programs divide by).
-/
import Idealize.ShloMosaic.PureOps.Ideal

noncomputable section

namespace Cert.Triplet.Consts

open Idealize.ShloMosaic

theorem ofBits_zero : Ideal.ofBits .f32 0#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_262144 : Ideal.ofBits .f32 0x48800000#32 = ((262144 : ℝ) : EReal) := by
  simp [Ideal.ofBits, Ideal.ieee, -EReal.coe_mul]; norm_num

end Cert.Triplet.Consts

end
-- ==== Proof.SumIndex.lean ====
/-
  The triplets, counted group by group, step by step, lane by lane, are all the triplets once each.
-/
import Mathlib.Algebra.BigOperators.Group.Finset.Defs
import Mathlib.Data.Fintype.BigOperators
import proofs.«403355_j41497974014034_2_alg».proof.Proof.Spec

noncomputable section

open scoped BigOperators

namespace Cert.Triplet

/-- Numbering the triplets by (group, step, lane) is a bijection onto all 262144 of them: triplet `t` is lane
    `t mod 512` of step `(t / 512) mod 256` of group `t / 131072`, since `t = (g · 256 + k) · 512 + r` with `r < 512`
    and `k < 256` is the mixed-radix writing of `t`. -/
def SumIndex.tixEquiv : Fin 2 × Fin 256 × Fin 512 ≃ Fin 262144 where
  toFun x := tix x.1 x.2.1 x.2.2
  invFun t := (⟨t.val / 131072, by omega⟩, ⟨t.val / 512 % 256, by omega⟩, ⟨t.val % 512, by omega⟩)
  left_inv := by
    rintro ⟨g, k, r⟩
    have hg := g.isLt
    have hk := k.isLt
    have hr := r.isLt
    refine Prod.ext (Fin.ext ?_) (Prod.ext (Fin.ext ?_) (Fin.ext ?_))
    · show ((g.val * 256 + k.val) * 512 + r.val) / 131072 = g.val
      omega
    · show ((g.val * 256 + k.val) * 512 + r.val) / 512 % 256 = k.val
      omega
    · show ((g.val * 256 + k.val) * 512 + r.val) % 512 = r.val
      omega
  right_inv := by
    intro t
    have ht := t.isLt
    refine Fin.ext ?_
    show (t.val / 131072 * 256 + t.val / 512 % 256) * 512 + t.val % 512 = t.val
    omega

/-- A sum over all 262144 triplets is the sum over the 2 groups, the 256 steps of a group and the 512 lanes of a step. -/
theorem sum_tix (f : Fin 262144 → ℝ) :
    ∑ g : Fin 2, ∑ k : Fin 256, ∑ r : Fin 512, f (tix g k r) = ∑ t : Fin 262144, f t := by
  -- the sum over all triplets, carried along the bijection, is a sum over the triples (g, k, r); a sum over a
  -- product of index sets is the iterated sum
  rw [← Fintype.sum_equiv SumIndex.tixEquiv (fun x => f (tix x.1 x.2.1 x.2.2)) f (fun _ => rfl), Fintype.sum_prod_type]
  refine Finset.sum_congr rfl fun g _ => ?_
  rw [Fintype.sum_prod_type]

end Cert.Triplet

end
-- ==== Proof.NormValue.lean ====
/-
  The first kernel region: the table of unit rows. Each grid point takes 1024 rows of the table and stores
  `x · (Σ x²)^(-1/2)` row by row; over the eight points the result array holds every row scaled to unit length.

  The steps: the body's value at one entry of its block (the entry times the reciprocal root of its row's sum of
  squares); the same formula as one function `scaled` of the whole table; block `t` of the argument and of the result
  are rows `1024 t … 1024 t + 1023`, so what point `t` stores is block `t` of `scaled`; the eight blocks cover the
  table; and on real entries with a positive row sum `(Σ x²)^(-1/2)` is `(√(Σ x²))⁻¹`, which gives the unit row.
-/
import proofs.«403355_j41497974014034_2_alg».proof.Proof.Spec
import proofs.«403355_j41497974014034_2_alg».proof.Proof.Gen.KernelIdeal.Frame
import Idealize.ShloMosaic.Lib.Pipeline.Value
import Idealize.ShloMosaic.Lib.ValueLayout

noncomputable section

open scoped BigOperators

namespace Cert.Triplet.Norm

open Cert.KernelIdeal Cert.KernelIdeal.Gen
open Idealize.ShloMosaic Idealize.ShloMosaic.TcCoe Idealize.ShloMosaic.ValueIdx Idealize.SL.Sem
open Idealize.ShloMosaic.Pipeline (Dat)

/-! ## A column made from a vector, and a column spread over the lanes -/

section Layout
variable {α : Type}

/-- A vector of length `a` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's value at an entry of its block -/

/-- A sum along the lanes at row `p` is the sum over the 512 entries of that row. -/
theorem rowsum_apply (y : FVec Ideal S1024x512 .f32) (h : S1024x512.Reduces [1] S1024) (hφ : FKind.Formats .f32)
    (hacc : (0x00000000#32 : BitVec 32) = 0x00000000#32) (p : Fin 1024) :
    multiReduction (F := Ideal) .add [1] S1024 y 0x00000000#32 h hφ hacc (ix1 p) = ∑ k : Fin 512, y (ix2 p k) := by
  refine (Ideal.multiReduction_add_single y 0x00000000#32 h hφ hacc (ix1 p)).trans ?_
  refine Finset.sum_congr rfl fun k _ => congrArg y ?_
  funext a; apply Fin.ext
  match a with
  | ⟨0, _⟩ => rfl
  | ⟨1, _⟩ => rfl

/-- The body's value at row `p`, lane `q` of its block: the entry times the reciprocal root of its row's sum of squares. -/
theorem pay_apply (x0 : Vec Ideal S1024x512 .f32) (p : Fin 1024) (q : Fin 512) :
    (k0_pay1 (F := Ideal) x0 : S1024x512.Idx → EReal) (ix2 p q)
      = x0 (ix2 p q) * Ideal.rsqrt (∑ k : Fin 512, x0 (ix2 p k) * x0 (ix2 p k)) := by
  unfold k0_pay1
  show x0 (ix2 p q) * _ = _
  refine congrArg (x0 (ix2 p q) * ·) ?_
  refine (broadcastTo_a1_ab_apply _ _ p q).trans ?_
  show Ideal.rsqrt _ = _
  refine congrArg Ideal.rsqrt ?_
  refine (shapeCast_a_a1_apply _ _ p 0).trans ?_
  exact rowsum_apply (mulf x0 x0) _ _ _ p

/-! ## The whole table, and the blocks as rows of it -/

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The table the region computes from a table `X`: each entry times the reciprocal root of its row's sum of squares. -/
def scaled (X : S8192x512.Idx → EReal) : S8192x512.Idx → EReal := fun i =>
  X i * Ideal.rsqrt (∑ k : Fin 512, X (ix2 (⟨(i 0).val, idx2_lt0 i⟩ : Fin 8192) k) * X (ix2 (⟨(i 0).val, idx2_lt0 i⟩ : Fin 8192) k))

/-- At row `n`, lane `d`. -/
theorem scaled_apply (X : S8192x512.Idx → EReal) (n : Fin 8192) (d : Fin 512) :
    scaled X (ix2 n d) = X (ix2 n d) * Ideal.rsqrt (∑ k : Fin 512, X (ix2 n k) * X (ix2 n k)) := rfl

/-- Both windows' block at grid point `t` is block row `t`, the one block column. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The grid has eight points. -/
theorem point_lt (t : Fin cfg0.N) : t.val < 8 := by
  have h : t.val < cfg0.N := t.isLt
  have hN : cfg0.N = 8 := N_0
  omega

/-- The input block at point `t` holds rows `1024 t … 1024 t + 1023` of the argument table. -/
theorem iblk_apply (c : Dev nD) (t : Fin cfg0.N) (p : Fin 1024) (q : Fin 512) (n : Fin 8192) (hn : n.val = t.val * 1024 + p.val) :
    (iblk0 V c 0 t : Vec Ideal S1024x512 .f32) (ix2 p q) = (V c main_arg0 : S8192x512.Idx → EReal) (ix2 n q) := by
  obtain ⟨e0, e1, -, -⟩ := idx_facts t
  unfold iblk0
  rw [View.read_apply]
  show V c main_arg0 _ = V c main_arg0 _
  congr 1
  funext a; apply Fin.ext
  match a with
  | ⟨0, _⟩ => show win0_0.index t (0 : Fin 2) * 1024 + 1 * p.val = n.val; rw [e0, hn]; omega
  | ⟨1, _⟩ => show win0_0.index t (1 : Fin 2) * 512 + 1 * q.val = q.val; rw [e1]; omega

/-- Where the output block at point `t` lies in the result table. -/
theorem oblk_emb (t : Fin cfg0.N) (p : Fin 1024) (q : Fin 512) (n : Fin 8192) (hn : n.val = t.val * 1024 + p.val) :
    ((cfg0.win 1).blk t).view.emb (ix2 p q) = (ix2 n q : S8192x512.Idx) := by
  obtain ⟨-, -, e2, e3⟩ := idx_facts t
  funext a; apply Fin.ext
  match a with
  | ⟨0, _⟩ => show win0_1.index t (0 : Fin 2) * 1024 + 1 * p.val = n.val; rw [e2, hn]; omega
  | ⟨1, _⟩ => show win0_1.index t (1 : Fin 2) * 512 + 1 * q.val = q.val; rw [e3]; omega

/-- What point `t` writes back is block `t` of the scaled argument table. -/
theorem flushed_eq (c : Dev nD) (t : Fin cfg0.N) :
    (dat0 (F := Ideal) V c).flushed 1 t = ((cfg0.win 1).blk t).view.read (Elt Ideal) (scaled (V c main_arg0)) := by
  show (cfg0.win 1).cut (grid0.coords t) ((dat0 V c).after 1 t) = _
  rw [after0_1]
  unfold out0_1
  rw [View.canon_unit_zero hz]
  simp only [View.ld_unit_zero (S := S1024x512) hz]
  funext j
  obtain ⟨p, q, rfl⟩ : ∃ (p : Fin 1024) (q : Fin 512), j = ix2 p q := ⟨j 0, j 1, eq_ix2 j⟩
  have ht := point_lt t
  show (k0_pay1 (F := Ideal) (iblk0 V c 0 t) : S1024x512.Idx → EReal) (ix2 p q) = scaled (V c main_arg0) (((cfg0.win 1).blk t).view.emb (ix2 p q))
  rw [oblk_emb t p q ⟨t.val * 1024 + p.val, by omega⟩ rfl, scaled_apply]
  refine (pay_apply (iblk0 V c 0 t) p q).trans ?_
  rw [iblk_apply V c t p q ⟨t.val * 1024 + p.val, by omega⟩ rfl]
  refine congrArg (_ * Ideal.rsqrt ·) (Finset.sum_congr rfl fun k _ => ?_)
  rw [iblk_apply V c t p k ⟨t.val * 1024 + p.val, by omega⟩ rfl]

/-- An index of the result table is in point `t`'s block iff each coordinate is in the block's range on its axis. -/
theorem mem_blk (t : Fin cfg0.N) (i : S8192x512.Idx) :
    i ∈ ((cfg0.win 1).blk t).view.set ↔ ∀ a : Fin 2, win0_1.index t a * S1024x512.size a ≤ (i a).val ∧ (i a).val < win0_1.index t a * S1024x512.size a + S1024x512.size a := by
  show i ∈ ((View.whole main_v0).slice (win0_1.rect t)).set ↔ _
  rw [View.set_slice_whole, Rect.mem_set_unit]
  exact Iff.rfl

/-- Row `r` of the result table lies in the block of point `r / 1024`, and every point writes its block back. -/
theorem covered (i : S8192x512.Idx) :
    ∃ t : Fin cfg0.N, (cfg0.win 1).flush t = true ∧ i ∈ ((cfg0.win 1).blk t).view.set := by
  have hi0 : (i 0).val < 8192 := idx2_lt0 i
  have hi1 : (i 1).val < 512 := idx2_lt1 i
  have hN : cfg0.N = 8 := N_0
  obtain ⟨t, ht⟩ : ∃ t : Fin cfg0.N, t.val = (i 0).val / 1024 := ⟨⟨(i 0).val / 1024, by omega⟩, rfl⟩
  obtain ⟨-, -, e2, e3⟩ := idx_facts t
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 512 ≤ (i 1).val ∧ (i 1).val < win0_1.index t (1 : Fin 2) * 512 + 512; omega

/-- After the region the result table is the scaled argument table. -/
theorem array_eq (c : Dev nD) : (dat0 (F := Ideal) V c).arrAt 1 cfg0.N = scaled (V c main_arg0) :=
  (dat0 V c).arrAt_eq_of_cover 1 (scaled (V c main_arg0)) (fun t _ => flushed_eq V c t) covered

/-! ## Real entries: the unit rows -/

/-- A finite sum of real numbers, read in the extended reals, is the sum of the readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- On a table of real entries with no zero row, the scaled table holds the unit rows. -/
theorem scaled_real (X : S8192x512.Idx → EReal)
    (hfin : ∀ (n : Fin 8192) (d : Fin 512), X (ix2 n d) ≠ ⊤ ∧ X (ix2 n d) ≠ ⊥)
    (hpos : ∀ n : Fin 8192, 0 < sqn (xr X) n) (n : Fin 8192) (d : Fin 512) :
    scaled X (ix2 n d) = ((unitRow (xr X) n d : ℝ) : EReal) := by
  have hx : ∀ k : Fin 512, X (ix2 n k) = ((xr X n k : ℝ) : EReal) := fun k =>
    (EReal.coe_toReal (hfin n k).1 (hfin n k).2).symm
  have hs : (∑ k : Fin 512, X (ix2 n k) * X (ix2 n k)) = ((sqn (xr X) n : ℝ) : EReal) := by
    unfold sqn
    rw [coe_sum]
    exact Finset.sum_congr rfl fun k _ => by rw [hx k, ← EReal.coe_mul]
  have hr : Ideal.rsqrt ((sqn (xr X) n : ℝ) : EReal) = (((Real.sqrt (sqn (xr X) n))⁻¹ : ℝ) : EReal) := by
    rw [Ideal.rsqrt_coe, if_neg (not_lt.mpr (hpos n).le), if_neg (hpos n).ne']
  rw [scaled_apply, hs, hr, hx d, ← EReal.coe_mul]
  rfl

/-- After region 0 the unit-row table: entry (n, d) of window 1's array is row `n` of the argument scaled to unit
    length, when the argument's entries are real numbers and no row is zero. -/
theorem norm_array (c : Dev nD) (X : S8192x512.Idx → EReal) (hX : V c main_arg0 = X)
    (hfin : ∀ (n : Fin 8192) (d : Fin 512), X (ix2 n d) ≠ ⊤ ∧ X (ix2 n d) ≠ ⊥)
    (hpos : ∀ n : Fin 8192, 0 < sqn (xr X) n) (n : Fin 8192) (d : Fin 512) :
    ((dat0 (F := Ideal) V c).arrAt 1 cfg0.N : S8192x512.Idx → EReal) (ix2 n d) = ((unitRow (xr X) n d : ℝ) : EReal) := by
  rw [array_eq V c, hX]
  exact scaled_real X hfin hpos n d

end Cert.Triplet.Norm

end
-- ==== Proof.TripletBody.lean ====
/-
  One step of the second kernel region, as arithmetic. From 512 triplets' index words and the table of unit rows the
  body selects three rows per triplet (a 0/1 matrix times the table: the row the word names), takes the two inner
  products, the cost `max (cos (a, q) - cos (a, p) + 1) 0`, sums the 512 costs and adds the sum into entry (0, 0) of its
  8 × 128 accumulator block, leaving the other entries as they were.
-/
import proofs.«403355_j41497974014034_2_alg».proof.Proof.Spec
import proofs.«403355_j41497974014034_2_alg».proof.Proof.Gen.KernelIdeal.Skeleton
import Idealize.ShloMosaic.Lib.Pipeline.Value
import Idealize.ShloMosaic.Lib.ValueLayout
import proofs.«403355_j41497974014034_2_alg».proof.Proof.Consts

noncomputable section

open scoped BigOperators

namespace Cert.Triplet.Body

open Cert.KernelIdeal Cert.KernelIdeal.Gen
open Idealize.ShloMosaic Idealize.ShloMosaic.TcCoe Idealize.ShloMosaic.ValueIdx Idealize.SL.Sem

/-- The summed cost of the 512 triplets of one step, from their three columns of index words. -/
def stepSum (u : Fin 8192 → Fin 512 → ℝ) (va vp vq : Vec Ideal S512x1 .i32) : ℝ :=
  ∑ r : Fin 512, lossU u (rowOf (va (ix2 r 0))) (rowOf (vp (ix2 r 0))) (rowOf (vq (ix2 r 0)))

/-- The reset value: the zero block. -/
theorem reset_apply (i : S8x128.Idx) : k1_pay2 (F := Ideal) i = 0 := by
  unfold k1_pay2
  exact Ideal.ofBits_zero_f32

/-! ## Layout operations at an index, in the three column forms this body meets -/

section Layout
variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a `[1, 1]` array broadcast to `[a, b]` is read at every `(p, c)`. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The matrix product at an index

The product's left index at output `(r, d)` and middle position `k` is `(r, k)`, its right index `(k, d)`: one
coordinate lemma per operand and axis. -/

theorem lhs_sel_0 (i : S512x512.Idx) (q : dot_S512x8192_S8192x512_S512x512_1_0_0_1_n_n.contr.Idx) :
    (dot_S512x8192_S8192x512_S512x512_1_0_0_1_n_n.lhsIdx i q 0).val = (i 0).val := by
  unfold DotDims.lhsIdx
  rw [dif_neg (show ¬(0 : Fin S512x8192.rank) ∈ dot_S512x8192_S8192x512_S512x512_1_0_0_1_n_n.lhsBatch by decide), dif_pos (show (0 : Fin S512x8192.rank) ∈ dot_S512x8192_S8192x512_S512x512_1_0_0_1_n_n.lhsNonContracting by decide)]
  rfl
theorem lhs_sel_1 (i : S512x512.Idx) (q : dot_S512x8192_S8192x512_S512x512_1_0_0_1_n_n.contr.Idx) :
    (dot_S512x8192_S8192x512_S512x512_1_0_0_1_n_n.lhsIdx i q 1).val = (q ⟨0, by decide⟩).val :=
  dot_S512x8192_S8192x512_S512x512_1_0_0_1_n_n.lhsIdx_val_of_single rfl i q
theorem rhs_sel_0 (i : S512x512.Idx) (q : dot_S512x8192_S8192x512_S512x512_1_0_0_1_n_n.contr.Idx) :
    (dot_S512x8192_S8192x512_S512x512_1_0_0_1_n_n.rhsIdx i q 0).val = (q ⟨0, by decide⟩).val :=
  dot_S512x8192_S8192x512_S512x512_1_0_0_1_n_n.rhsIdx_val_of_single rfl i q
theorem rhs_sel_1 (i : S512x512.Idx) (q : dot_S512x8192_S8192x512_S512x512_1_0_0_1_n_n.contr.Idx) :
    (dot_S512x8192_S8192x512_S512x512_1_0_0_1_n_n.rhsIdx i q 1).val = (i 1).val := by
  unfold DotDims.rhsIdx
  rw [dif_neg (show ¬(1 : Fin S8192x512.rank) ∈ dot_S512x8192_S8192x512_S512x512_1_0_0_1_n_n.rhsBatch by decide), dif_pos (show (1 : Fin S8192x512.rank) ∈ dot_S512x8192_S8192x512_S512x512_1_0_0_1_n_n.rhsNonContracting by decide)]
  rfl

/-- The product of a 512 × 8192 matrix with an 8192 × 512 one onto the zero block, at `(r, d)`: the sum over the 8192
    middle positions of the products. -/
theorem matmul_at (L : FVec Ideal S512x8192 .bf16) (R : FVec Ideal S8192x512 .bf16) (r d : Fin 512) :
    matmul dot_S512x8192_S8192x512_S512x512_1_0_0_1_n_n none L R (constant (F := Ideal) S512x512 .f32 0x00000000#32) (ix2 r d)
      = ∑ k : Fin 8192, L (ix2 r k) * R (ix2 k d) := by
  simp only [matmul]
  rw [Ideal.matmul_constant_zero_apply, ← Equiv.sum_comp (contrEquiv1 dot_S512x8192_S8192x512_S512x512_1_0_0_1_n_n 8192 rfl rfl).symm]
  refine Finset.sum_congr rfl fun k _ => ?_
  have hk := contrEquiv1_symm_val dot_S512x8192_S8192x512_S512x512_1_0_0_1_n_n 8192 rfl rfl k
  have el : dot_S512x8192_S8192x512_S512x512_1_0_0_1_n_n.lhsIdx (ix2 r d) ((contrEquiv1 dot_S512x8192_S8192x512_S512x512_1_0_0_1_n_n 8192 rfl rfl).symm k) = ix2 r k := funext fun a => Fin.ext (by
    match a with
    | ⟨0, _⟩ => exact lhs_sel_0 _ _
    | ⟨1, _⟩ => exact (lhs_sel_1 _ _).trans hk)
  have er : dot_S512x8192_S8192x512_S512x512_1_0_0_1_n_n.rhsIdx (ix2 r d) ((contrEquiv1 dot_S512x8192_S8192x512_S512x512_1_0_0_1_n_n 8192 rfl rfl).symm k) = ix2 k d := funext fun a => Fin.ext (by
    match a with
    | ⟨0, _⟩ => exact (rhs_sel_0 _ _).trans hk
    | ⟨1, _⟩ => exact rhs_sel_1 _ _)
  rw [el, er]

/-! ## The 0/1 matrix of a column of index words, and the row it selects -/

/-- A compared pair of words, widened and read as a number: 1 where the words are equal, else 0. -/
theorem sitofp_eq_bit (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · subst h; rw [if_pos rfl]; simp [IntOp.cmpi]
  · have hb : (x == y) = false := by simpa using h
    rw [if_neg h]; simp [IntOp.cmpi, hb]

/-- Entry `(r, n)` of the 0/1 matrix of the column `v`: 1 where lane `r`'s word is the number `n`, else 0. -/
theorem onehot_apply (v : IVec S512x1 32) (h1 : S512x1.ShapeCasts S512x1) (h2 : S512x1.Broadcasts S512x8192)
    (h3 : S1x8192.Iotas .tc 32 [1]) (h4 : S1x8192.Broadcasts S512x8192) (h5 : 1 < 32) (h6 : FTy.bits .bf16 < FTy.bits .f32)
    (r : Fin 512) (n : Fin 8192) :
    (truncf .bf16 (sitofp (F := Ideal) .f32 (extui 32 (cmpi .eq (broadcastTo S512x8192 (shapeCast S512x1 v h1) h2)
        (broadcastTo S512x8192 (iota .tc S1x8192 32 [1] h3) h4)) h5)) h6 : FVec Ideal S512x8192 .bf16) (ix2 r n)
      = if v (ix2 r 0) = BitVec.ofNat 32 n.val then 1 else 0 := by
  rw [truncf_apply, sitofp_apply, extui_apply]
  show FloatOps.sitofp (F := Ideal) .f32 ((IntOp.cmpi .eq (broadcastTo S512x8192 (shapeCast S512x1 v h1) h2 (ix2 r n))
    (broadcastTo S512x8192 (iota .tc S1x8192 32 [1] h3) h4 (ix2 r n))).setWidth 32) = _
  rw [broadcastTo_a1_ab_apply, shapeCast_self, broadcastTo_1b_ab_apply, iota_single_apply, sitofp_eq_bit]

/-- A sum against the 0/1 row of a word below 8192 keeps exactly the term the word names. -/
theorem sum_pick (w : BitVec 32) (hw : w.toNat < 8192) (f : Fin 8192 → EReal) :
    ∑ k : Fin 8192, (if w = BitVec.ofNat 32 k.val then (1 : EReal) else 0) * f k = f (rowOf w) := by
  rw [Finset.sum_eq_single (rowOf w)]
  · rw [if_pos, one_mul]
    apply BitVec.eq_of_toNat_eq
    rw [BitVec.toNat_ofNat, rowOf_val hw]
    exact (Nat.mod_eq_of_lt (by omega)).symm
  · intro k _ hk
    rw [if_neg, zero_mul]
    intro h
    apply hk
    apply Fin.ext
    rw [rowOf_val hw, h, BitVec.toNat_ofNat]
    have := k.isLt
    omega
  · intro h; exact absurd (Finset.mem_univ _) h

/-! ## The lane sums -/

/-- The sum along the 512 entries of each row of a 512 × 512 block, at row `r`. -/
theorem lane_sum (src : FVec Ideal S512x512 .f32) (h : S512x512.Reduces [1] S512) (hφ : FKind.Formats .f32)
    (hacc : (0x00000000#32 : BitVec 32) = FKind.add.neutral .f32 hφ) (r : Fin 512) :
    multiReduction .add [1] S512 src 0x00000000#32 h hφ hacc (ix1 r) = ∑ d : Fin 512, src (ix2 r d) := by
  refine (Ideal.multiReduction_add_single src 0x00000000#32 h hφ hacc (ix1 r)).trans ?_
  refine Finset.sum_congr rfl fun d _ => congrArg src (funext fun a => Fin.ext ?_)
  match a with
  | ⟨0, _⟩ => rfl
  | ⟨1, _⟩ => rfl

/-- The sum down the 512 entries of a column, at its one index. -/
theorem col_sum (src : FVec Ideal S512x1 .f32) (h : S512x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 512, src (ix2 r (0 : Fin 1)) := by
  refine (Ideal.multiReduction_add_single src 0x00000000#32 h hφ hacc (ix1 (0 : Fin 1))).trans ?_
  refine Finset.sum_congr rfl fun d _ => congrArg src (funext fun a => Fin.ext ?_)
  match a with
  | ⟨0, _⟩ => rfl
  | ⟨1, _⟩ => rfl

/-! ## The three selections -/

/-- The anchor rows: at `(r, d)` the table's row that lane `r`'s word names, entry `d`. -/
theorem pay3_apply (v : Vec Ideal S512x1 .i32) (tbl : Vec Ideal S8192x512 .bf16)
    (hv : ∀ r : Fin 512, (v (ix2 r 0)).toNat < 8192) (r d : Fin 512) :
    k1_pay3 (F := Ideal) v tbl (ix2 r d) = tbl (ix2 (rowOf (v (ix2 r 0))) d) := by
  unfold k1_pay3
  refine (matmul_at _ _ r d).trans ?_
  refine (Finset.sum_congr rfl fun k _ => ?_).trans (sum_pick (v (ix2 r 0)) (hv r) fun k => tbl (ix2 k d))
  rw [onehot_apply, shapeCast_self]

/-- The negative rows, likewise. -/
theorem pay4_apply (v : Vec Ideal S512x1 .i32) (tbl : Vec Ideal S8192x512 .bf16)
    (hv : ∀ r : Fin 512, (v (ix2 r 0)).toNat < 8192) (r d : Fin 512) :
    k1_pay4 (F := Ideal) v tbl (ix2 r d) = tbl (ix2 (rowOf (v (ix2 r 0))) d) := by
  unfold k1_pay4
  refine (matmul_at _ _ r d).trans ?_
  refine (Finset.sum_congr rfl fun k _ => ?_).trans (sum_pick (v (ix2 r 0)) (hv r) fun k => tbl (ix2 k d))
  rw [onehot_apply, shapeCast_self]

/-- The positive inner products: at lane `r` the inner product of the anchor's row and the positive's row. -/
theorem pay5_apply (va : Vec Ideal S512x1 .i32) (tbl : Vec Ideal S8192x512 .bf16) (vp : Vec Ideal S512x1 .i32)
    (tbl' : Vec Ideal S8192x512 .bf16) (ha : ∀ r : Fin 512, (va (ix2 r 0)).toNat < 8192)
    (hp : ∀ r : Fin 512, (vp (ix2 r 0)).toNat < 8192) (r : Fin 512) :
    k1_pay5 (F := Ideal) va tbl vp tbl' (ix1 r)
      = ∑ d : Fin 512, tbl (ix2 (rowOf (va (ix2 r 0))) d) * tbl' (ix2 (rowOf (vp (ix2 r 0))) d) := by
  unfold k1_pay5
  refine (lane_sum _ _ _ _ r).trans ?_
  refine Finset.sum_congr rfl fun d _ => ?_
  rw [mulf_apply, pay3_apply va tbl ha]
  refine congrArg (_ * ·) ?_
  refine (matmul_at _ _ r d).trans ?_
  refine (Finset.sum_congr rfl fun k _ => ?_).trans (sum_pick (vp (ix2 r 0)) (hp r) fun k => tbl' (ix2 k d))
  rw [onehot_apply, shapeCast_self]

/-! ## The mask of entry (0, 0) -/

/-- A number below 2³², as a word, compared with the zero word: 1 where the number is 0, else 0. -/
theorem cmpi_ofNat_zero (n : ℕ) (hn : n < 2 ^ 32) :
    IntOp.cmpi .eq (BitVec.ofNat 32 n) 0#32 = if n = 0 then 1#1 else 0#1 := by
  by_cases h : n = 0
  · subst h; rfl
  · have hb : (BitVec.ofNat 32 n == 0#32) = false := by
      rw [beq_eq_false_iff_ne]
      intro e
      have := congrArg BitVec.toNat e
      simp at this
      omega
    rw [if_neg h]; simp [IntOp.cmpi, hb]

/-- The mask "row number is 0 and column number is 0" of the 8 × 128 block, at `(a, b)`. -/
theorem mask_apply (h0 : S8x128.Iotas .tc 32 [0]) (h1 : S8x128.Iotas .tc 32 [1]) (a : Fin 8) (b : Fin 128) :
    andi (cmpi .eq (iota .tc S8x128 32 [0] h0) (broadcast S8x128 0#32))
        (cmpi .eq (iota .tc S8x128 32 [1] h1) (broadcast S8x128 0#32)) (ix2 a b)
      = if a.val = 0 ∧ b.val = 0 then 1#1 else 0#1 := by
  show IntOp.andi (IntOp.cmpi .eq (iota .tc S8x128 32 [0] h0 (ix2 a b)) 0#32)
    (IntOp.cmpi .eq (iota .tc S8x128 32 [1] h1 (ix2 a b)) 0#32) = _
  rw [iota_single_apply, iota_single_apply]
  show IntOp.andi (IntOp.cmpi .eq (BitVec.ofNat 32 a.val) 0#32) (IntOp.cmpi .eq (BitVec.ofNat 32 b.val) 0#32) = _
  rw [cmpi_ofNat_zero _ (by have := a.isLt; omega), cmpi_ofNat_zero _ (by have := b.isLt; omega)]
  by_cases ha : a.val = 0 <;> by_cases hb : b.val = 0 <;> simp [ha, hb, IntOp.andi]

/-! ## The stored block -/

/-- What the step stores, from the three blocks it is handed: at `(a, b)` the accumulator's entry, plus — at (0, 0) only —
    the sum over the 512 lanes of `max (⟨A r, Q r⟩ - P r + 1) 0`, the words of the margin and of zero left as they are
    spelt. -/
theorem pay1_apply (A Q : FVec Ideal S512x512 .f32) (P : FVec Ideal S512 .f32) (acc : Vec Ideal S8x128 .f32)
    (a : Fin 8) (b : Fin 128) :
    k1_pay1 (F := Ideal) A Q P acc (ix2 a b)
      = acc (ix2 a b) + (if a.val = 0 ∧ b.val = 0 then
          ∑ r : Fin 512, max ((∑ d : Fin 512, A (ix2 r d) * Q (ix2 r d)) - P (ix1 r) + Ideal.ofBits .f32 0x3F800000#32)
            (Ideal.ofBits .f32 0x00000000#32)
        else Ideal.ofBits .f32 0x00000000#32) := by
  unfold k1_pay1
  refine (addf_apply _ _ _).trans ?_
  rw [shapeCast_self]
  refine congrArg (acc (ix2 a b) + ·) ?_
  refine (select_apply _ _ _ _).trans ?_
  rw [mask_apply]
  by_cases hab : a.val = 0 ∧ b.val = 0
  · rw [if_pos hab, if_pos hab, select_one, broadcastTo_11_ab_apply, shapeCast_self, shapeCast_a_1a_apply]
    refine (col_sum _ _ _ _).trans ?_
    refine Finset.sum_congr rfl fun r _ => ?_
    rw [maximumf_apply, addf_apply, subf_apply, shapeCast_a_a1_apply, shapeCast_a_a1_apply]
    exact congrArg (fun x : EReal => max (x - P (ix1 r) + Ideal.ofBits .f32 0x3F800000#32) (Ideal.ofBits .f32 0x00000000#32))
      (lane_sum _ _ _ _ r)
  · rw [if_neg hab, if_neg hab, select_zero]
    rfl

/-! ## The step, over the reals -/

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) fun i s hi ih => ?_
  rw [Finset.sum_insert hi, Finset.sum_insert hi, EReal.coe_add, ih]

/-- One triplet's cost, computed on coerced reals, is the coercion of the cost. -/
theorem coe_loss (x y : ℝ) : max ((x : EReal) - y + ((1 : ℝ) : EReal)) 0 = ((max (x - y + 1) 0 : ℝ) : EReal) := by
  rw [EReal.coe_strictMono.monotone.map_max, EReal.coe_add, EReal.coe_sub, EReal.coe_zero]

/-- What one step stores: the accumulator block it read, plus the step's summed cost at entry (0, 0). -/
theorem step_apply (u : Fin 8192 → Fin 512 → ℝ) (tbl : Vec Ideal S8192x512 .bf16)
    (htbl : ∀ (n : Fin 8192) (d : Fin 512), tbl (ix2 n d) = ((u n d : ℝ) : EReal))
    (va vp vq : Vec Ideal S512x1 .i32)
    (ha : ∀ r : Fin 512, (va (ix2 r 0)).toNat < 8192) (hp : ∀ r : Fin 512, (vp (ix2 r 0)).toNat < 8192)
    (hq : ∀ r : Fin 512, (vq (ix2 r 0)).toNat < 8192)
    (acc : Vec Ideal S8x128 .f32) (a : Fin 8) (b : Fin 128) :
    k1_pay1 (F := Ideal) (k1_pay3 va tbl) (k1_pay4 vq tbl) (k1_pay5 va tbl vp tbl) acc (ix2 a b)
      = acc (ix2 a b) + (if a.val = 0 ∧ b.val = 0 then ((stepSum u va vp vq : ℝ) : EReal) else 0) := by
  rw [pay1_apply]
  refine congrArg (acc (ix2 a b) + ·) ?_
  by_cases hab : a.val = 0 ∧ b.val = 0
  · rw [if_pos hab, if_pos hab, Consts.ofBits_one, Ideal.ofBits_zero_f32]
    unfold stepSum
    rw [coe_sum]
    refine Finset.sum_congr rfl fun r _ => ?_
    rw [pay5_apply va tbl vp tbl ha hp r]
    have h1 : ∀ d : Fin 512, k1_pay3 (F := Ideal) va tbl (ix2 r d) * k1_pay4 (F := Ideal) vq tbl (ix2 r d)
        = ((u (rowOf (va (ix2 r 0))) d * u (rowOf (vq (ix2 r 0))) d : ℝ) : EReal) := fun d => by
      rw [pay3_apply va tbl ha, pay4_apply vq tbl hq, htbl, htbl, EReal.coe_mul]
    have h2 : ∀ d : Fin 512, tbl (ix2 (rowOf (va (ix2 r 0))) d) * tbl (ix2 (rowOf (vp (ix2 r 0))) d)
        = ((u (rowOf (va (ix2 r 0))) d * u (rowOf (vp (ix2 r 0))) d : ℝ) : EReal) := fun d => by
      rw [htbl, htbl, EReal.coe_mul]
    rw [Finset.sum_congr rfl fun d _ => h1 d, Finset.sum_congr rfl fun d _ => h2 d, ← coe_sum, ← coe_sum, coe_loss]
    rfl
  · rw [if_neg hab, if_neg hab, Ideal.ofBits_zero_f32]

end Cert.Triplet.Body

end
-- ==== Proof.TripletPieces.lean ====
/-
  What the second kernel region's body leaves in its 8 × 128 block, case by case, as the body's own arithmetic: on a
  group's first step the block was reset to zero before it was read, on every other step it is read as the step before
  left it; either way the body stores that block plus its contribution.
-/
import proofs.«403355_j41497974014034_2_alg».proof.Proof.Gen.KernelIdeal.Frame
import Idealize.ShloMosaic.Lib.Pipeline.Value
import Idealize.ShloMosaic.Lib.Tactic
import Idealize.ShloMosaic.PureOps.Ideal.Laws

noncomputable section

open scoped BigOperators

namespace Cert.Triplet.Pieces

open Cert.KernelIdeal Cert.KernelIdeal.Gen
open Idealize.ShloMosaic Idealize.ShloMosaic.TcCoe Idealize.SL.Sem

/-- The block's rectangle starts at the origin: both offsets are zero. -/
theorem off_zero : (![0, 0] : Fin 2 → Nat) = fun _ => 0 := funext fun a => by fin_cases a <;> rfl

/-- A group's first step: the body's sum over the zero block. -/
theorem out_A (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S512x1 .i32) (harg4 : arg4.IsWhole) (arg5 : Memref sig .tc .vmem S8192x512 .bf16) (harg5 : arg5.IsWhole) (arg6 : Memref sig .tc .vmem S8x128 .f32) (harg6 : arg6.IsWhole) (hc0 : cond1_0 i)
    (x0 : Vec Ideal S512x1 .i32) (x1 : Vec Ideal S512x1 .i32) (x2 : Vec Ideal S512x1 .i32) (x3 : Vec Ideal S8192x512 .bf16) :
    out1_A_4 (F := Ideal) c i arg2 harg2 arg3 harg3 arg4 harg4 arg5 harg5 arg6 harg6 hc0 x0 x1 x2 x3
      = k1_pay1 (F := Ideal) (k1_pay3 x0 x3) (k1_pay4 x2 x3) (k1_pay5 x0 x3 x1 x3) (k1_pay2 (F := Ideal)) := by
  -- the two stores both cover the whole block, so the block ends as the later store's value
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S8x128) off_zero]
  -- each input is read whole, and the block is read back as the zero block the first store left
  simp only [View.readAt_eq_ld, harg2.read_unread, harg3.read_unread, harg4.read_unread, harg5.read_unread,
    View.readCov_unit_zero (S := S8x128) _ off_zero, View.ld_unit_zero (S := S512x1) off_zero,
    View.ld_unit_zero (S := S8192x512) off_zero]

/-- Any other step: the body's sum over the block the step before left. -/
theorem out_B (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S512x1 .i32) (harg4 : arg4.IsWhole) (arg5 : Memref sig .tc .vmem S8192x512 .bf16) (harg5 : arg5.IsWhole) (arg6 : Memref sig .tc .vmem S8x128 .f32) (harg6 : arg6.IsWhole) (hc0 : ¬cond1_0 i)
    (x0 : Vec Ideal S512x1 .i32) (x1 : Vec Ideal S512x1 .i32) (x2 : Vec Ideal S512x1 .i32) (x3 : Vec Ideal S8192x512 .bf16) (xo4 : Vec Ideal S8x128 .f32) :
    out1_B_4 (F := Ideal) c i arg2 harg2 arg3 harg3 arg4 harg4 arg5 harg5 arg6 harg6 hc0 x0 x1 x2 x3 xo4
      = k1_pay1 (F := Ideal) (k1_pay3 x0 x3) (k1_pay4 x2 x3) (k1_pay5 x0 x3 x1 x3) xo4 := by
  -- the one store covers the whole block, so the block ends as its value
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero off_zero]
  -- each input is read whole, and so is the block as the step before left it
  simp only [View.readAt_eq_ld, harg2.read_unread, harg3.read_unread, harg4.read_unread, harg5.read_unread,
    harg6.read_unread, View.ld_unit_zero (S := S8x128) off_zero, View.ld_unit_zero (S := S512x1) off_zero,
    View.ld_unit_zero (S := S8192x512) off_zero]

end Cert.Triplet.Pieces

end
-- ==== Proof.TripletAccum.lean ====
/-
  The second kernel region over its grid: two groups of 256 steps. A group's first step resets the group's 8 × 128
  block to zero and adds its summed cost at entry (0, 0); every later step adds its own; the block is written back to
  rows 8g … 8g + 7 of the 16 × 128 result when the group ends. So the result array is zero except at (0, 0) and
  (8, 0), which hold the two groups' summed costs.

  The argument: point t reads rows 512 t … 512 t + 511 of each index column and the whole table; so the cost it adds
  is the summed cost of triplets 512 t … 512 t + 511. By induction on the point, after point t = 256 g + j the block
  holds at (0, 0) the summed cost of points 256 g … 256 g + j and zero elsewhere. The two points that write back are
  256 g + 255, each to rows 8 g … 8 g + 7, and these two blocks cover the result; the sum over a group's 256 points of
  512 triplets each is the sum over steps k and lanes r of triplet (256 g + k) · 512 + r.
-/
import proofs.«403355_j41497974014034_2_alg».proof.Proof.Spec
import proofs.«403355_j41497974014034_2_alg».proof.Proof.TripletBody
import proofs.«403355_j41497974014034_2_alg».proof.Proof.TripletPieces
import proofs.«403355_j41497974014034_2_alg».proof.Proof.Gen.KernelIdeal.Frame
import Idealize.ShloMosaic.Lib.Pipeline.Value
import Idealize.ShloMosaic.Lib.Tactic

noncomputable section

open scoped BigOperators

namespace Cert.Triplet.Accum

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three index columns and the table, as the region finds them. -/
abbrev colA (c : Dev nD) : S262144x1.Idx → BitVec 32 := V c main_v1
abbrev colP (c : Dev nD) : S262144x1.Idx → BitVec 32 := V c main_v2
abbrev colQ (c : Dev nD) : S262144x1.Idx → BitVec 32 := V c main_v3
abbrev tblArr (c : Dev nD) : S8192x512.Idx → EReal := V c main_v0

/-- The blocks point `t` reads: 512 rows of each index column, and the table. -/
abbrev blkA (c : Dev nD) (t : Fin cfg1.N) : Vec Ideal S512x1 .i32 := iblk1 V c 0 t
abbrev blkP (c : Dev nD) (t : Fin cfg1.N) : Vec Ideal S512x1 .i32 := iblk1 V c 1 t
abbrev blkQ (c : Dev nD) (t : Fin cfg1.N) : Vec Ideal S512x1 .i32 := iblk1 V c 2 t
abbrev blkT (c : Dev nD) (t : Fin cfg1.N) : Vec Ideal S8192x512 .bf16 := iblk1 V c 3 t

/-- The block index of every window at every point, decided over the grid: block `t` of each index column, block 0
    of the table, block `t / 256` (the group) of the result. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val / 256 ∧ win1_4.index t (1 : Fin 2) = 0 :=
  (by decide +kernel : ∀ t : Fin grid1.N, _)

/-- Row `r` of the block point `t` reads of a column is row `512 t + r` of the column; the table's block is the table. -/
theorem blkA_apply (c : Dev nD) (t : Fin cfg1.N) (r : Fin 512) (h : 512 * t.val + r.val < 262144) :
    blkA V c t (ix2 r 0) = colA V c (ix2 ⟨512 * t.val + r.val, h⟩ 0) := by
  obtain ⟨e0, e1, -⟩ := idx_facts t
  show iblk1 V c 0 t (ix2 r 0) = _
  unfold iblk1
  rw [View.read_apply]
  show V c main_v1 _ = V c main_v1 _
  congr 1
  funext a
  apply Fin.ext
  match a with
  | ⟨0, _⟩ => show win1_0.index t 0 * 512 + 1 * r.val = 512 * t.val + r.val; rw [e0]; omega
  | ⟨1, _⟩ => show win1_0.index t 1 * 1 + 1 * 0 = 0; rw [e1]

theorem blkP_apply (c : Dev nD) (t : Fin cfg1.N) (r : Fin 512) (h : 512 * t.val + r.val < 262144) :
    blkP V c t (ix2 r 0) = colP V c (ix2 ⟨512 * t.val + r.val, h⟩ 0) := by
  obtain ⟨-, -, e0, e1, -⟩ := idx_facts t
  show iblk1 V c 1 t (ix2 r 0) = _
  unfold iblk1
  rw [View.read_apply]
  show V c main_v2 _ = V c main_v2 _
  congr 1
  funext a
  apply Fin.ext
  match a with
  | ⟨0, _⟩ => show win1_1.index t 0 * 512 + 1 * r.val = 512 * t.val + r.val; rw [e0]; omega
  | ⟨1, _⟩ => show win1_1.index t 1 * 1 + 1 * 0 = 0; rw [e1]

theorem blkQ_apply (c : Dev nD) (t : Fin cfg1.N) (r : Fin 512) (h : 512 * t.val + r.val < 262144) :
    blkQ V c t (ix2 r 0) = colQ V c (ix2 ⟨512 * t.val + r.val, h⟩ 0) := by
  obtain ⟨-, -, -, -, e0, e1, -⟩ := idx_facts t
  show iblk1 V c 2 t (ix2 r 0) = _
  unfold iblk1
  rw [View.read_apply]
  show V c main_v3 _ = V c main_v3 _
  congr 1
  funext a
  apply Fin.ext
  match a with
  | ⟨0, _⟩ => show win1_2.index t 0 * 512 + 1 * r.val = 512 * t.val + r.val; rw [e0]; omega
  | ⟨1, _⟩ => show win1_2.index t 1 * 1 + 1 * 0 = 0; rw [e1]

theorem blkT_apply (c : Dev nD) (t : Fin cfg1.N) (n : Fin 8192) (d : Fin 512) :
    blkT V c t (ix2 n d) = tblArr V c (ix2 n d) := by
  obtain ⟨-, -, -, -, -, -, e0, e1, -⟩ := idx_facts t
  show iblk1 V c 3 t (ix2 n d) = _
  unfold iblk1
  rw [View.read_apply]
  show V c main_v0 _ = V c main_v0 _
  congr 1
  funext a
  apply Fin.ext
  match a with
  | ⟨0, _⟩ => show win1_3.index t 0 * 8192 + 1 * n.val = n.val; rw [e0]; omega
  | ⟨1, _⟩ => show win1_3.index t 1 * 512 + 1 * d.val = d.val; rw [e1]; omega

/-- The summed cost of the 512 triplets whose index words sit in rows 512 n … 512 n + 511 of the three columns
    (zero past the last such block). -/
def stepR (u : Fin 8192 → Fin 512 → ℝ) (c : Dev nD) (n : ℕ) : ℝ :=
  if h : n < 512 then
    ∑ r : Fin 512, lossU u (rowOf (colA V c (ix2 ⟨512 * n + r.val, by omega⟩ 0)))
      (rowOf (colP V c (ix2 ⟨512 * n + r.val, by omega⟩ 0))) (rowOf (colQ V c (ix2 ⟨512 * n + r.val, by omega⟩ 0)))
  else 0

/-- The step sum over the blocks point `t` reads is the summed cost of block `t` of the columns. -/
theorem stepSum_blk (u : Fin 8192 → Fin 512 → ℝ) (c : Dev nD) (t : Fin cfg1.N) :
    Body.stepSum u (blkA V c t) (blkP V c t) (blkQ V c t) = stepR V u c t.val := by
  have hN : t.val < 512 := lt_of_lt_of_eq t.isLt N_1
  unfold Body.stepSum stepR
  rw [dif_pos hN]
  refine Finset.sum_congr rfl fun r _ => ?_
  rw [blkA_apply V c t r (by omega), blkP_apply V c t r (by omega), blkQ_apply V c t r (by omega)]

/-- An entry of the result array lies in point `t`'s block iff each coordinate lies in the block's range. -/
theorem mem_blk (t : Fin cfg1.N) (i : S16x128.Idx) :
    i ∈ ((cfg1.win 4).blk t).view.set ↔ ∀ a : Fin 2, win1_4.index t a * S8x128.size a ≤ (i a).val
      ∧ (i a).val < win1_4.index t a * S8x128.size a + S8x128.size a := by
  show i ∈ ((View.whole main_v4).slice (win1_4.rect t)).set ↔ _
  rw [View.set_slice_whole, Rect.mem_set_unit]
  exact Iff.rfl

/-- Row `a` of the result lies in the block that the last point of group `a / 8` writes back. -/
theorem covered (i : S16x128.Idx) :
    ∃ t : Fin cfg1.N, (cfg1.win 4).flush t = true ∧ i ∈ ((cfg1.win 4).blk t).view.set := by
  have hi0 : (i 0).val < 16 := (i 0).isLt
  have hi1 : (i 1).val < 128 := (i 1).isLt
  have hN : cfg1.N = 512 := N_1
  have ht : 256 * ((i 0).val / 8) + 255 < cfg1.N := by rw [hN]; omega
  refine ⟨⟨256 * ((i 0).val / 8) + 255, ht⟩, (flush1_4 _).mpr (by show (256 * ((i 0).val / 8) + 255) % 256 = 255; omega), ?_⟩
  obtain ⟨-, -, -, -, -, -, -, -, e0, e1⟩ := idx_facts ⟨256 * ((i 0).val / 8) + 255, ht⟩
  have e0' : win1_4.index ⟨256 * ((i 0).val / 8) + 255, ht⟩ (0 : Fin 2) = (i 0).val / 8 := by
    rw [e0]; show (256 * ((i 0).val / 8) + 255) / 256 = _; omega
  rw [mem_blk]
  intro a
  match a with
  | ⟨0, _⟩ =>
    show win1_4.index ⟨256 * ((i 0).val / 8) + 255, ht⟩ (0 : Fin 2) * 8 ≤ (i 0).val
      ∧ (i 0).val < win1_4.index ⟨256 * ((i 0).val / 8) + 255, ht⟩ (0 : Fin 2) * 8 + 8
    rw [e0']; omega
  | ⟨1, _⟩ =>
    show win1_4.index ⟨256 * ((i 0).val / 8) + 255, ht⟩ (1 : Fin 2) * 128 ≤ (i 1).val
      ∧ (i 1).val < win1_4.index ⟨256 * ((i 0).val / 8) + 255, ht⟩ (1 : Fin 2) * 128 + 128
    rw [e1]; omega

section Points

variable (c : Dev nD) (u : Fin 8192 → Fin 512 → ℝ)
  (htbl : ∀ (n : Fin 8192) (d : Fin 512), tblArr V c (ix2 n d) = ((u n d : ℝ) : EReal))
  (hra : ∀ t : Fin 262144, (colA V c (ix2 t 0)).toNat < 8192)
  (hrp : ∀ t : Fin 262144, (colP V c (ix2 t 0)).toNat < 8192)
  (hrq : ∀ t : Fin 262144, (colQ V c (ix2 t 0)).toNat < 8192)

include htbl hra hrp hrq

/-- A group's first point leaves its summed cost at entry (0, 0) of the block and zero elsewhere. -/
theorem point_reset (t : Fin cfg1.N) (h0 : t.val % 256 = 0) (a : Fin 8) (b : Fin 128) :
    outsAt1 V c t.val t.isLt (ix2 a b) = if a.val = 0 ∧ b.val = 0 then ((stepR V u c t.val : ℝ) : EReal) else 0 := by
  have hN : t.val < 512 := lt_of_lt_of_eq t.isLt N_1
  rw [outsAt1_A V c t h0]
  refine (congrFun (Pieces.out_A c (grid1.coords t) (ms1_0 t) (hs1_0 t) (ms1_1 t) (hs1_1 t) (ms1_2 t) (hs1_2 t) (ms1_3 t) (hs1_3 t)
    (ms1_4 t) (hs1_4 t) ((hcond1_0 t).mpr h0) (iblk1 V c 0 t) (iblk1 V c 1 t) (iblk1 V c 2 t) (iblk1 V c 3 t)) (ix2 a b)).trans ?_
  refine (Body.step_apply u (blkT V c t) (fun n d => (blkT_apply V c t n d).trans (htbl n d)) (blkA V c t) (blkP V c t) (blkQ V c t)
    (fun r => by rw [blkA_apply V c t r (by omega)]; exact hra _)
    (fun r => by rw [blkP_apply V c t r (by omega)]; exact hrp _)
    (fun r => by rw [blkQ_apply V c t r (by omega)]; exact hrq _)
    (k1_pay2 (F := Ideal)) a b).trans ?_
  rw [Body.reset_apply, zero_add, stepSum_blk]

/-- Every other point adds its summed cost at entry (0, 0) to what the point before left. -/
theorem point_add (t : Fin cfg1.N) (h0 : ¬t.val % 256 = 0) (a : Fin 8) (b : Fin 128) :
    outsAt1 V c t.val t.isLt (ix2 a b)
      = outsAt1 V c (t.val - 1) (Nat.lt_of_le_of_lt (Nat.sub_le _ _) t.isLt) (ix2 a b)
        + if a.val = 0 ∧ b.val = 0 then ((stepR V u c t.val : ℝ) : EReal) else 0 := by
  have hN : t.val < 512 := lt_of_lt_of_eq t.isLt N_1
  rw [outsAt1_B V c t h0]
  refine (congrFun (Pieces.out_B c (grid1.coords t) (ms1_0 t) (hs1_0 t) (ms1_1 t) (hs1_1 t) (ms1_2 t) (hs1_2 t) (ms1_3 t) (hs1_3 t)
    (ms1_4 t) (hs1_4 t) (fun h => h0 ((hcond1_0 t).mp h)) (iblk1 V c 0 t) (iblk1 V c 1 t) (iblk1 V c 2 t) (iblk1 V c 3 t)
    (outsAt1 V c (t.val - 1) (Nat.lt_of_le_of_lt (Nat.sub_le _ _) t.isLt))) (ix2 a b)).trans ?_
  refine (Body.step_apply u (blkT V c t) (fun n d => (blkT_apply V c t n d).trans (htbl n d)) (blkA V c t) (blkP V c t) (blkQ V c t)
    (fun r => by rw [blkA_apply V c t r (by omega)]; exact hra _)
    (fun r => by rw [blkP_apply V c t r (by omega)]; exact hrp _)
    (fun r => by rw [blkQ_apply V c t r (by omega)]; exact hrq _)
    (outsAt1 V c (t.val - 1) (Nat.lt_of_le_of_lt (Nat.sub_le _ _) t.isLt)) a b).trans ?_
  rw [stepSum_blk]

/-- After point `n` the block holds, at entry (0, 0), the summed cost of the points of `n`'s group up to `n`, and zero
    elsewhere: by induction on the point. -/
theorem block_after : ∀ (n : ℕ) (hn : n < cfg1.N) (a : Fin 8) (b : Fin 128),
    outsAt1 V c n hn (ix2 a b)
      = if a.val = 0 ∧ b.val = 0 then
          ((∑ s ∈ Finset.range (n % 256 + 1), stepR V u c (256 * (n / 256) + s) : ℝ) : EReal)
        else 0
  | 0, hn, a, b => by
    refine (point_reset V c u htbl hra hrp hrq ⟨0, hn⟩ rfl a b).trans ?_
    simp only [Nat.zero_mod, Nat.zero_div, Nat.mul_zero, Nat.zero_add, Finset.sum_range_one]
  | n + 1, hn, a, b => by
    by_cases h0 : (n + 1) % 256 = 0
    · refine (point_reset V c u htbl hra hrp hrq ⟨n + 1, hn⟩ h0 a b).trans ?_
      have e : 256 * ((n + 1) / 256) + 0 = n + 1 := by omega
      rw [h0, Nat.zero_add, Finset.sum_range_one, e]
    · refine (point_add V c u htbl hra hrp hrq ⟨n + 1, hn⟩ h0 a b).trans ?_
      show outsAt1 V c n _ (ix2 a b) + _ = _
      rw [block_after n (Nat.lt_of_succ_lt hn) a b]
      have e1 : (n + 1) % 256 = n % 256 + 1 := by omega
      have e2 : (n + 1) / 256 = n / 256 := by omega
      have e3 : 256 * (n / 256) + (n % 256 + 1) = n + 1 := by omega
      by_cases hab : a.val = 0 ∧ b.val = 0
      · rw [if_pos hab, if_pos hab, if_pos hab, ← EReal.coe_add, e1, e2, Finset.sum_range_succ _ (n % 256 + 1), e3]
      · rw [if_neg hab, if_neg hab, if_neg hab, add_zero]

/-- The summed cost of group `g`: its 256 points' step sums. -/
def grpR (g : ℕ) : ℝ := ∑ s ∈ Finset.range 256, stepR V u c (256 * g + s)

/-- The result array: each group's summed cost at the first entry of the group's 8 rows, zero elsewhere. -/
def resArr (i : S16x128.Idx) : EReal :=
  if (i 0).val % 8 = 0 ∧ (i 1).val = 0 then ((grpR V c u ((i 0).val / 8) : ℝ) : EReal) else 0

/-- What a group's last point writes back is the group's block of the result array. -/
theorem flushed_eq (t : Fin cfg1.N) (hf : (cfg1.win 4).flush t = true) :
    (dat1 V c).flushed 4 t = ((cfg1.win 4).blk t).view.read (Elt Ideal) (resArr V c u) := by
  have h255 : t.val % 256 = 255 := (flush1_4 t).mp hf
  have hN : t.val < 512 := lt_of_lt_of_eq t.isLt N_1
  obtain ⟨-, -, -, -, -, -, -, -, e0, e1⟩ := idx_facts t
  show (cfg1.win 4).cut (grid1.coords t) ((dat1 V c).after 4 t) = _
  rw [after1_4]
  funext j
  obtain ⟨p, q, rfl⟩ : ∃ (p : Fin 8) (q : Fin 128), j = ix2 p q := ⟨j 0, j 1, eq_ix2 j⟩
  show outsAt1 V c t.val t.isLt (ix2 p q)
    = if (win1_4.index t 0 * 8 + 1 * p.val) % 8 = 0 ∧ (win1_4.index t 1 * 128 + 1 * q.val) = 0 then
        ((grpR V c u ((win1_4.index t 0 * 8 + 1 * p.val) / 8) : ℝ) : EReal) else 0
  rw [block_after V c u htbl hra hrp hrq t.val t.isLt p q, e0, e1]
  by_cases hpq : p.val = 0 ∧ q.val = 0
  · have e2 : (t.val / 256 * 8 + 1 * p.val) / 8 = t.val / 256 := by omega
    rw [if_pos hpq, if_pos (by omega), e2, h255]
    rfl
  · rw [if_neg hpq, if_neg (by omega)]

/-- So the result array ends holding `resArr`. -/
theorem final_arr : (dat1 V c).arrAt 4 cfg1.N = resArr V c u :=
  (dat1 V c).arrAt_eq_of_cover 4 (resArr V c u) (flushed_eq V c u htbl hra hrp hrq) covered

end Points

/-- A group's summed cost, over its steps and lanes. -/
theorem grpR_eq (c : Dev nD) (u : Fin 8192 → Fin 512 → ℝ) (g : Fin 2) :
    grpR V c u g.val = ∑ k : Fin 256, ∑ r : Fin 512,
      lossU u (rowOf (colA V c (ix2 (tix g k r) 0))) (rowOf (colP V c (ix2 (tix g k r) 0))) (rowOf (colQ V c (ix2 (tix g k r) 0))) := by
  unfold grpR
  rw [Finset.sum_range]
  refine Finset.sum_congr rfl fun k _ => ?_
  have hg : g.val < 2 := g.isLt
  have hk : k.val < 256 := k.isLt
  unfold stepR
  rw [dif_pos (by omega)]
  refine Finset.sum_congr rfl fun r _ => ?_
  have e : ∀ h, (⟨512 * (256 * g.val + k.val) + r.val, h⟩ : Fin 262144) = tix g k r := fun h => Fin.ext (by show 512 * (256 * g.val + k.val) + r.val = (g.val * 256 + k.val) * 512 + r.val; omega)
  rw [e]

/-- After region 1: entry (a, b) of window 4's array is the summed cost of group `a / 8`'s triplets when `a` is the
    first row of the group's block and `b = 0`, and zero elsewhere — when the table window's array holds real numbers
    `u` and the three index columns hold row numbers. -/
theorem triplet_array (c : Dev nD) (u : Fin 8192 → Fin 512 → ℝ)
    (htbl : ∀ (n : Fin 8192) (d : Fin 512), (V c main_v0 : S8192x512.Idx → EReal) (ix2 n d) = ((u n d : ℝ) : EReal))
    (hra : ∀ t : Fin 262144, ((V c main_v1 : S262144x1.Idx → BitVec 32) (ix2 t 0)).toNat < 8192)
    (hrp : ∀ t : Fin 262144, ((V c main_v2 : S262144x1.Idx → BitVec 32) (ix2 t 0)).toNat < 8192)
    (hrq : ∀ t : Fin 262144, ((V c main_v3 : S262144x1.Idx → BitVec 32) (ix2 t 0)).toNat < 8192)
    (a : Fin 16) (b : Fin 128) :
    ((dat1 (F := Ideal) V c).arrAt 4 cfg1.N : S16x128.Idx → EReal) (ix2 a b)
      = if a.val % 8 = 0 ∧ b.val = 0 then
          (((∑ k : Fin 256, ∑ r : Fin 512,
              lossU u (rowOf ((V c main_v1 : S262144x1.Idx → BitVec 32) (ix2 (tix ⟨a.val / 8, by omega⟩ k r) 0)))
                (rowOf ((V c main_v2 : S262144x1.Idx → BitVec 32) (ix2 (tix ⟨a.val / 8, by omega⟩ k r) 0)))
                (rowOf ((V c main_v3 : S262144x1.Idx → BitVec 32) (ix2 (tix ⟨a.val / 8, by omega⟩ k r) 0)))) : ℝ) : EReal)
        else 0 := by
  refine (congrFun (final_arr V c u htbl hra hrp hrq) (ix2 a b)).trans ?_
  have ha : a.val < 16 := a.isLt
  show (if a.val % 8 = 0 ∧ b.val = 0 then ((grpR V c u (a.val / 8) : ℝ) : EReal) else 0) = _
  rw [show grpR V c u (a.val / 8) = _ from grpR_eq V c u ⟨a.val / 8, by omega⟩]

end Cert.Triplet.Accum

end
-- ==== Proof.KernelValue.lean ====
/-
  The kernel program's result, end to end. Region 0 leaves the table of unit rows; three reshapes turn the index arrays
  into columns (row t of a column is word t of its array); region 1 leaves a 16 × 128 array that is zero except for the
  two groups' summed costs at (0, 0) and (8, 0); the host adds its 2048 entries and divides by 262144. The two group
  sums together run over every triplet once, so the result is the mean triplet cost.
-/
import proofs.«403355_j41497974014034_2_alg».proof.Proof.Spec
import proofs.«403355_j41497974014034_2_alg».proof.Proof.Consts
import proofs.«403355_j41497974014034_2_alg».proof.Proof.SumIndex
import proofs.«403355_j41497974014034_2_alg».proof.Proof.NormValue
import proofs.«403355_j41497974014034_2_alg».proof.Proof.TripletAccum
import proofs.«403355_j41497974014034_2_alg».proof.Proof.Gen.KernelIdeal.Frame
import Idealize.ShloMosaic.Lib.StableHlo.Run
import Idealize.ShloMosaic.Lib.Pipeline.Value
import Idealize.ShloMosaic.PureOps.Ideal.Laws

noncomputable section

open scoped BigOperators

namespace Cert.Triplet.Kernel

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (m : (ℓ : Loc nD τ sig) → Buf (Elt Ideal) ℓ) (ρ : Dev nD → PrngReg)

/-- The three reshapes write none of region 0's arrays: the table of unit rows enters region 1 as region 0 left it. -/
theorem table_kept (c : Dev nD) : W2 m ρ c (Proc.devRef .tc main_v0) = (dat0 (V0 m ρ) c).arrAt 1 cfg0.N :=
  calc W2 m ρ c (Proc.devRef .tc main_v0)
    _ = W1 m ρ c (Proc.devRef .tc main_v0) := StableHlo.after_of_forall_not_mem (b := Proc.devRef .tc main_v0) _ _ (List.forall_iff_forall_mem.mp (by
          simp only [hostOps1, List.Forall, StableHlo.reshape_writes, Finset.mem_singleton]
          repeat' apply And.intro
          all_goals exact StableHlo.devRef_ne_of_ne (by decide)))
    _ = (dat0 (V0 m ρ) c).arrAt 1 cfg0.N := W1_arr m ρ c 1

/-- A reshape of a [262144] array to a [262144 × 1] column read at row t: word t. -/
theorem column_apply (x : S262144.Idx → BitVec 32) (t : Fin 262144) :
    shapeCast S262144x1 x shapeCasts_S262144_S262144x1 (ix2 t 0) = x (ix1 t) :=
  shapeCast_apply x _ (ix2 t 0) (ix1 t) (by
    rw [Shape.rowMajor_val_two, Shape.rowMajor_val_one]
    show t.val = t.val * 1 + 0
    omega)

/-- Row t of each index column entering region 1 is word t of its argument array: the reshape reads the array as
    launched (region 0 writes no argument). -/
theorem col1 (c : Dev nD) (t : Fin 262144) :
    W2 m ρ c (Proc.devRef .tc main_v1) (ix2 t 0) = m ((c : Thread nD τ).loc main_arg1) (ix1 t) := by
  have e : W2 m ρ c (Proc.devRef .tc main_v1)
      = (shapeCast S262144x1 (W1 m ρ c (Proc.devRef .tc main_arg1)) shapeCasts_S262144_S262144x1 : S262144x1.Idx → BitVec 32) := by
    show StableHlo.after hostOps1 (W1 m ρ c) (Proc.devRef .tc main_v1) = _
    after_results
    rfl
  have e1 : W1 m ρ c (Proc.devRef .tc main_arg1) = m ((c : Thread nD τ).loc main_arg1) := W1_of_ne m ρ c main_arg1 (by decide)
  rw [e, column_apply, e1]
theorem col2 (c : Dev nD) (t : Fin 262144) :
    W2 m ρ c (Proc.devRef .tc main_v2) (ix2 t 0) = m ((c : Thread nD τ).loc main_arg2) (ix1 t) := by
  have e : W2 m ρ c (Proc.devRef .tc main_v2)
      = (shapeCast S262144x1 (W1 m ρ c (Proc.devRef .tc main_arg2)) shapeCasts_S262144_S262144x1 : S262144x1.Idx → BitVec 32) := by
    show StableHlo.after hostOps1 (W1 m ρ c) (Proc.devRef .tc main_v2) = _
    after_results
    rfl
  have e1 : W1 m ρ c (Proc.devRef .tc main_arg2) = m ((c : Thread nD τ).loc main_arg2) := W1_of_ne m ρ c main_arg2 (by decide)
  rw [e, column_apply, e1]
theorem col3 (c : Dev nD) (t : Fin 262144) :
    W2 m ρ c (Proc.devRef .tc main_v3) (ix2 t 0) = m ((c : Thread nD τ).loc main_arg3) (ix1 t) := by
  have e : W2 m ρ c (Proc.devRef .tc main_v3)
      = (shapeCast S262144x1 (W1 m ρ c (Proc.devRef .tc main_arg3)) shapeCasts_S262144_S262144x1 : S262144x1.Idx → BitVec 32) := by
    show StableHlo.after hostOps1 (W1 m ρ c) (Proc.devRef .tc main_v3) = _
    after_results
    rfl
  have e1 : W1 m ρ c (Proc.devRef .tc main_arg3) = m ((c : Thread nD τ).loc main_arg3) := W1_of_ne m ρ c main_arg3 (by decide)
  rw [e, column_apply, e1]

/-- The host's last two operations on a 16 × 128 array: all its entries added onto zero, divided by 262144. -/
theorem tail_apply (A : S16x128.Idx → EReal) (i : S_.Idx) :
    Host.divf (F := Ideal) (Host.reduceAdd A (constant S_ .f32 0x00000000#32) reducesTo_S16x128_S_d0_1 h_S_)
        (constant S_ .f32 0x48800000#32) i
      = Ideal.div (0 + ∑ j : S16x128.Idx, A j) ((262144 : ℝ) : EReal) := by
  show FloatOps.hostDivf (Host.reduceAdd A (constant S_ .f32 0x00000000#32) reducesTo_S16x128_S_d0_1 h_S_ i)
      (constant (F := Ideal) S_ .f32 0x48800000#32 i) = _
  simp only [Host.reduceAdd, Ideal.hostReduceAdd_def, Ideal.hostDivf_def]
  rw [Ideal.hostReduceAdd_total reducesTo_S16x128_S_d0_1 (fun b => b.elim0) A _ i]
  simp only [constant, Ideal.ofBits_def, Consts.ofBits_zero, Consts.ofBits_262144]

/-- A 16 × 128 array of reals that is zero except at (0, 0) and (8, 0), the first entries of the two groups' blocks,
    adds up to the two groups' values. -/
theorem sum_groups (G : Fin 2 → ℝ) :
    ∑ a : Fin 16, ∑ b : Fin 128, (if a.val % 8 = 0 ∧ b.val = 0 then G ⟨a.val / 8, by omega⟩ else 0) = ∑ g : Fin 2, G g := by
  have hb : ∀ a : Fin 16, ∑ b : Fin 128, (if a.val % 8 = 0 ∧ b.val = 0 then G ⟨a.val / 8, by omega⟩ else 0)
      = if a.val % 8 = 0 then G ⟨a.val / 8, by omega⟩ else 0 := fun a => by
    rw [Finset.sum_eq_single (0 : Fin 128)]
    · simp
    · intro b _ hb
      have : b.val ≠ 0 := fun e => hb (Fin.ext e)
      simp [this]
    · intro h; exact absurd (Finset.mem_univ _) h
  simp only [hb]
  simp [Fin.sum_univ_succ]

/-- A finite sum of real coercions is the coercion of the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE KERNEL'S RESULT: in the domain the result buffer ends at the mean triplet cost. -/
theorem kernel_value (c : Dev nD)
    (h : Dom (m ((c : Thread nD τ).loc main_arg0)) (m ((c : Thread nD τ).loc main_arg1))
      (m ((c : Thread nD τ).loc main_arg2)) (m ((c : Thread nD τ).loc main_arg3))) :
    W4 m ρ c (Proc.devRef .tc main_v6)
      = fun _ => ((spec (m ((c : Thread nD τ).loc main_arg0)) (m ((c : Thread nD τ).loc main_arg1))
          (m ((c : Thread nD τ).loc main_arg2)) (m ((c : Thread nD τ).loc main_arg3)) : ℝ) : EReal) := by
  -- the last host stretch: the sum of region 1's array over 262144
  have e6 : W4 m ρ c (Proc.devRef .tc main_v6)
      = Host.divf (F := Ideal) (Host.reduceAdd (W3 m ρ c (Proc.devRef .tc main_v4)) (constant S_ .f32 0x00000000#32) reducesTo_S16x128_S_d0_1 h_S_)
          (constant S_ .f32 0x48800000#32) := by
    show StableHlo.after hostOps2 (W3 m ρ c) (Proc.devRef .tc main_v6) = _
    after_results
  have e4 : W3 m ρ c (Proc.devRef .tc main_v4) = (dat1 (V2 m ρ) c).arrAt 4 cfg1.N := W3_arr m ρ c 4
  -- region 1 enters with the table of unit rows and the three columns of index words
  have htbl : ∀ (n : Fin 8192) (d : Fin 512), (V2 m ρ c main_v0 : S8192x512.Idx → EReal) (ix2 n d)
      = ((unitRow (xr (m ((c : Thread nD τ).loc main_arg0))) n d : ℝ) : EReal) := fun n d => by
    show W2 m ρ c (Proc.devRef .tc main_v0) (ix2 n d) = _
    rw [table_kept]
    exact Norm.norm_array (V0 m ρ) c (m ((c : Thread nD τ).loc main_arg0)) rfl h.fin h.pos n d
  have hA : ∀ t : Fin 262144, (V2 m ρ c main_v1 : S262144x1.Idx → BitVec 32) (ix2 t 0) = m ((c : Thread nD τ).loc main_arg1) (ix1 t) := col1 m ρ c
  have hP : ∀ t : Fin 262144, (V2 m ρ c main_v2 : S262144x1.Idx → BitVec 32) (ix2 t 0) = m ((c : Thread nD τ).loc main_arg2) (ix1 t) := col2 m ρ c
  have hQ : ∀ t : Fin 262144, (V2 m ρ c main_v3 : S262144x1.Idx → BitVec 32) (ix2 t 0) = m ((c : Thread nD τ).loc main_arg3) (ix1 t) := col3 m ρ c
  have harr := Accum.triplet_array (V2 m ρ) c (unitRow (xr (m ((c : Thread nD τ).loc main_arg0)))) htbl
    (fun t => by rw [hA]; exact h.ra t) (fun t => by rw [hP]; exact h.rp t) (fun t => by rw [hQ]; exact h.rq t)
  simp only [hA, hP, hQ] at harr
  rw [e6, e4]
  funext i
  rw [tail_apply, ValueIdx.sum_idx2]
  -- every entry is a real coercion: the group's summed cost at the head of its block, zero elsewhere
  have hreal : ∀ (a : Fin 16) (b : Fin 128), ((dat1 (F := Ideal) (V2 m ρ) c).arrAt 4 cfg1.N : S16x128.Idx → EReal) (ix2 a b)
      = (((if a.val % 8 = 0 ∧ b.val = 0 then
            (fun g : Fin 2 => ∑ k : Fin 256, ∑ r : Fin 512,
              lossU (unitRow (xr (m ((c : Thread nD τ).loc main_arg0))))
                (rowOf (m ((c : Thread nD τ).loc main_arg1) (ix1 (tix g k r))))
                (rowOf (m ((c : Thread nD τ).loc main_arg2) (ix1 (tix g k r))))
                (rowOf (m ((c : Thread nD τ).loc main_arg3) (ix1 (tix g k r))))) ⟨a.val / 8, by omega⟩
          else 0 : ℝ)) : EReal) := fun a b => by
    rw [harr a b]
    split <;> simp
  simp only [hreal, coe_sum]
  have hs := sum_groups (fun g : Fin 2 => ∑ k : Fin 256, ∑ r : Fin 512,
      lossU (unitRow (xr (m ((c : Thread nD τ).loc main_arg0))))
        (rowOf (m ((c : Thread nD τ).loc main_arg1) (ix1 (tix g k r))))
        (rowOf (m ((c : Thread nD τ).loc main_arg2) (ix1 (tix g k r))))
        (rowOf (m ((c : Thread nD τ).loc main_arg3) (ix1 (tix g k r)))))
  rw [hs, sum_tix (fun t => lossU (unitRow (xr (m ((c : Thread nD τ).loc main_arg0))))
      (rowOf (m ((c : Thread nD τ).loc main_arg1) (ix1 t))) (rowOf (m ((c : Thread nD τ).loc main_arg2) (ix1 t)))
      (rowOf (m ((c : Thread nD τ).loc main_arg3) (ix1 t))))]
  rw [zero_add, Ideal.div_coe (by norm_num : (262144 : ℝ) ≠ 0), ← EReal.coe_mul]
  unfold spec totalLoss
  congr 1
  ring

end Cert.Triplet.Kernel

end
-- ==== Proof.RefMatrix.lean ====
/-
  The reference's distance matrix, read at an entry. Row `a` of the table divided by the square root of its squared
  length is the unit row; the product of the table of unit rows with its transpose has the cosine of rows `a` and `b`
  at (a, b); one minus it is the matrix the reference selects from. In the domain every stage is a real number.
-/
import proofs.«403355_j41497974014034_2_alg».proof.Proof.Spec
import proofs.«403355_j41497974014034_2_alg».proof.Proof.Gen.ReferenceIdeal.Run
import proofs.«403355_j41497974014034_2_alg».proof.Proof.Gen.ReferenceIdeal.Read
import Idealize.ShloMosaic.Lib.Pipeline.Value
import Idealize.ShloMosaic.Lib.ValueIdx

noncomputable section

open scoped BigOperators

namespace Cert.Triplet.Ref

open Cert.ReferenceIdeal Cert.ReferenceIdeal.Gen Cert.ReferenceIdeal.Read
open Idealize.ShloMosaic Idealize.ShloMosaic.TcCoe Idealize.ShloMosaic.ValueIdx Idealize.SL.Sem

/-- The coercion of a finite sum of reals is the sum of the coercions. -/
theorem coe_sum {ι : Type} (s : Finset ι) (f : ι → ℝ) :
    ((∑ k ∈ s, f k : ℝ) : EReal) = ∑ k ∈ s, ((f k : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- A finite entry of the table is the coercion of its real part. -/
theorem entry_coe (x0 : S8192x512.Idx → EReal)
    (hfin : ∀ (n : Fin 8192) (d : Fin 512), x0 (ix2 n d) ≠ ⊤ ∧ x0 (ix2 n d) ≠ ⊥) (n : Fin 8192) (d : Fin 512) :
    x0 (ix2 n d) = ((xr x0 n d : ℝ) : EReal) :=
  (EReal.coe_toReal (hfin n d).1 (hfin n d).2).symm

/-- The element of row `n` that the row sum adds at step `k` is the entry (n, k). -/
theorem idx_rowsum (n : Fin 8192) (k : Fin 512) : idx_main_call0_v1 (ix1 n) k = ix2 n k :=
  funext fun a => Fin.ext (by match a with | ⟨0, _⟩ => rfl | ⟨1, _⟩ => rfl)

/-- The sum of the squares of row `n` is the real number `sqn`. -/
theorem rowsum_apply (x0 : S8192x512.Idx → EReal)
    (hfin : ∀ (n : Fin 8192) (d : Fin 512), x0 (ix2 n d) ≠ ⊤ ∧ x0 (ix2 n d) ≠ ⊥) (n : Fin 8192) :
    val_main_call0_v1 (F := Ideal) x0 (ix1 n) = ((sqn (xr x0) n : ℝ) : EReal) := by
  rw [val_main_call0_v1_apply, val_main_call0_cst_apply, Ideal.ofBits_def, Ideal.ofBits_zero_f32, zero_add]
  refine Eq.trans ?_ (coe_sum _ _).symm
  refine Finset.sum_congr rfl fun k _ => ?_
  rw [idx_rowsum, val_main_call0_v0_apply, Ideal.mulf_def, entry_coe x0 hfin n k, ← EReal.coe_mul]

/-- The divisor at (n, d) is the square root of the squared length of row `n`. -/
theorem norm_apply (x0 : S8192x512.Idx → EReal)
    (hfin : ∀ (n : Fin 8192) (d : Fin 512), x0 (ix2 n d) ≠ ⊤ ∧ x0 (ix2 n d) ≠ ⊥)
    (hpos : ∀ n : Fin 8192, 0 < sqn (xr x0) n) (n : Fin 8192) (d : Fin 512) :
    val_main_v1 (F := Ideal) x0 (ix2 n d) = ((Real.sqrt (sqn (xr x0) n) : ℝ) : EReal) := by
  have hi : idx_main_call0_v2 (idx_main_v1 (ix2 n d)) = ix1 n :=
    funext fun a => Fin.ext (by match a with | ⟨0, _⟩ => rfl)
  rw [val_main_v1_apply, val_main_v0_apply, val_main_call0_v2_apply, hi, rowsum_apply x0 hfin n,
    Ideal.hostUnary_sqrt_def, Ideal.sqrt_coe, if_neg (not_lt.mpr (hpos n).le)]

/-- The quotient at (n, d) is entry `d` of the unit row `n`: the divisor is a positive real. -/
theorem unit_apply (x0 : S8192x512.Idx → EReal)
    (hfin : ∀ (n : Fin 8192) (d : Fin 512), x0 (ix2 n d) ≠ ⊤ ∧ x0 (ix2 n d) ≠ ⊥)
    (hpos : ∀ n : Fin 8192, 0 < sqn (xr x0) n) (n : Fin 8192) (d : Fin 512) :
    val_main_v2 (F := Ideal) x0 (ix2 n d) = ((unitRow (xr x0) n d : ℝ) : EReal) := by
  rw [val_main_v2_apply, norm_apply x0 hfin hpos n d, Ideal.hostDivf_def,
    Ideal.div_coe (Real.sqrt_pos.mpr (hpos n)).ne', entry_coe x0 hfin n d, ← EReal.coe_mul, one_div]
  rfl

/-- The transposed table at (d, n) is the same entry. -/
theorem unitT_apply (x0 : S8192x512.Idx → EReal)
    (hfin : ∀ (n : Fin 8192) (d : Fin 512), x0 (ix2 n d) ≠ ⊤ ∧ x0 (ix2 n d) ≠ ⊥)
    (hpos : ∀ n : Fin 8192, 0 < sqn (xr x0) n) (d : Fin 512) (n : Fin 8192) :
    val_main_v3 (F := Ideal) x0 (ix2 d n) = ((unitRow (xr x0) n d : ℝ) : EReal) := by
  have hi : idx_main_v3 (ix2 d n) = ix2 n d :=
    funext fun a => Fin.ext (by match a with | ⟨0, _⟩ => rfl | ⟨1, _⟩ => rfl)
  rw [val_main_v3_apply, hi, unit_apply x0 hfin hpos n d]

/-- The product of the unit table with its transpose at (a, b) is the cosine of rows `a` and `b`. -/
theorem dot_apply (x0 : S8192x512.Idx → EReal)
    (hfin : ∀ (n : Fin 8192) (d : Fin 512), x0 (ix2 n d) ≠ ⊤ ∧ x0 (ix2 n d) ≠ ⊥)
    (hpos : ∀ n : Fin 8192, 0 < sqn (xr x0) n) (a b : Fin 8192) :
    val_main_v4 (F := Ideal) x0 (ix2 a b) = ((cosU (unitRow (xr x0)) a b : ℝ) : EReal) := by
  rw [val_main_v4_apply]
  refine Eq.trans ?_ (coe_sum _ _).symm
  refine Finset.sum_congr rfl fun k _ => ?_
  have hl : lidx_main_v4 (ix2 a b) k = ix2 a k :=
    funext fun c => Fin.ext (by match c with | ⟨0, _⟩ => rfl | ⟨1, _⟩ => rfl)
  have hr : ridx_main_v4 (ix2 a b) k = ix2 k b :=
    funext fun c => Fin.ext (by match c with | ⟨0, _⟩ => rfl | ⟨1, _⟩ => rfl)
  rw [hl, hr, unit_apply x0 hfin hpos a k, unitT_apply x0 hfin hpos k b, ← EReal.coe_mul]

/-- Entry (a, b) of the reference's matrix `1 - u uᵀ` is one minus the cosine of rows `a` and `b`, when every entry of
    the table is a real number and no row is zero. -/
theorem matrix_apply (x0 : S8192x512.Idx → EReal)
    (hfin : ∀ (n : Fin 8192) (d : Fin 512), x0 (ix2 n d) ≠ ⊤ ∧ x0 (ix2 n d) ≠ ⊥)
    (hpos : ∀ n : Fin 8192, 0 < sqn (xr x0) n) (a b : Fin 8192) :
    val_main_v6 (F := Ideal) x0 (ix2 a b) = ((1 - cosU (unitRow (xr x0)) a b : ℝ) : EReal) := by
  have h1 : Ideal.ofBits .f32 0x3F800000#32 = 1 := IdealRules.sign_bit.ideal_onePat .f32
  rw [val_main_v6_apply, val_main_v5_apply, val_main_cst_apply, dot_apply x0 hfin hpos a b, Ideal.subf_def,
    Ideal.ofBits_def, h1, ← EReal.coe_one, ← EReal.coe_sub]

end Cert.Triplet.Ref

end
-- ==== Proof.LibPointGather.lean ====
/-
  A POINT TAKE READ AT AN INDEX. jnp's `table[i, j]` over a rank-2 table `[N₀ × N₁]` at M pairs of coordinates is a
  `stablehlo.gather` of one shape: the start indices are the `[M × 2]` array of pairs, both operand axes are collapsed
  (slice sizes 1, 1) and start-indexed in order, there are no offset and no batching axes, and the index vector lies
  along axis 1 of the start indices. StableHLO reads each start index as a signed integer and clamps it so that the slice
  fits the operand, which for a slice of one entry is into `[0, N₀ − 1]` and `[0, N₁ − 1]`. So result element `p` is the
  table at (the clamped first word of pair `p`, the clamped second word). General in the extents, the word width and
  the element type; nothing here names a program.
-/
import Idealize.ShloMosaic.Lib.StableHlo.Predicate
import Idealize.ShloMosaic.Lib.ValueIdx

namespace Cert.Lib.PointGather

open Idealize.ShloMosaic Idealize.ShloMosaic.ValueIdx

/-- THE POINT TAKE. Result element `p` is the table at the pair of coordinates start index `p` names, each read SIGNED
    and CLAMPED into its axis (`hoff` … `hivd`: the printed dimension numbers, each by `rfl`). -/
theorem gather_points {α : Type} {N0 N1 M w : Nat} (d : GatherDims ⟨2, ![N0, N1]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N0, N1]⟩ : Shape).Idx → α) (idx : IVec ⟨2, ![M, 2]⟩ w) (p : Fin M) (h0 : 0 < N0) (h1 : 0 < N1) :
    Host.gather d x idx (ix1 p)
      = x (ix2 ⟨min (idx (ix2 p (0 : Fin 2))).toInt.toNat (N0 - 1), by omega⟩
               ⟨min (idx (ix2 p (1 : Fin 2))).toInt.toNat (N1 - 1), by omega⟩) := by
  -- put the five printed lists in place of the record's fields; what remains free is the slice sizes and the
  -- (necessarily empty) list of batching axes of the start indices; name the record `d` again
  obtain ⟨od, cd, ob, sb, sm, iv, ss, wf⟩ := d
  dsimp only at hoff hcoll hob hsim hivd
  subst hoff hcoll hob hsim hivd
  generalize hd : (⟨[], [0, 1], [], sb, [0, 1], 1, ss, wf⟩ : GatherDims ⟨2, ![N0, N1]⟩ ⟨2, ![M, 2]⟩ ⟨1, ![M]⟩) = d
  -- no operand axis is a batching axis, and none is kept: both are collapsed
  have hb : ∀ a, a ∉ d.operandBatchingDims := by subst hd; exact fun a => List.not_mem_nil
  have hc0 : (0 : Fin 2) ∈ d.collapsedSliceDims := by subst hd; exact List.mem_cons_self
  have hc1 : (1 : Fin 2) ∈ d.collapsedSliceDims := by subst hd; exact List.mem_cons_of_mem _ List.mem_cons_self
  have hk0 : (0 : Fin 2) ∉ d.sKept := fun h => ((GatherDims.mem_sKept _ _).mp h).1 hc0
  have hk1 : (1 : Fin 2) ∉ d.sKept := fun h => ((GatherDims.mem_sKept _ _).mp h).1 hc1
  -- both are start-indexed: axis 0 by component 0 of the pair, axis 1 by component 1
  have hm0 : (0 : Fin 2) ∈ d.startIndexMap := by subst hd; exact List.mem_cons_self
  have hm1 : (1 : Fin 2) ∈ d.startIndexMap := by subst hd; exact List.mem_cons_of_mem _ List.mem_cons_self
  -- result element `p` reads component `c` of its start index at (p, c): the result's one axis is its batch axis and
  -- reads the start indices' axis 0, the index vector lies on axis 1
  have hs0 : d.siIdx (ix1 p) ⟨List.idxOf (0 : Fin 2) d.startIndexMap, List.idxOf_lt_length_iff.2 hm0⟩ = ix2 p (0 : Fin 2) := by
    subst hd
    funext b; refine Fin.ext ?_
    match b with
    | ⟨0, _⟩ => rfl
    | ⟨1, _⟩ => rfl
  have hs1 : d.siIdx (ix1 p) ⟨List.idxOf (1 : Fin 2) d.startIndexMap, List.idxOf_lt_length_iff.2 hm1⟩ = ix2 p (1 : Fin 2) := by
    subst hd
    funext b; refine Fin.ext ?_
    match b with
    | ⟨0, _⟩ => rfl
    | ⟨1, _⟩ => rfl
  -- the operand index, axis by axis: the clamped start alone, the slice being one entry wide
  unfold Host.gather
  congr 1
  funext a
  apply Fin.ext
  match a with
  | ⟨0, _⟩ =>
    show d.start (ix1 p) idx 0 + d.batchCoord (ix1 p) 0 + d.offCoord (ix1 p) 0 = min (idx (ix2 p (0 : Fin 2))).toInt.toNat (N0 - 1)
    rw [GatherDims.batchCoord_eq_zero _ _ _ (hb 0), GatherDims.offCoord_eq_zero _ _ _ hk0]
    simp only [Nat.add_zero]
    unfold GatherDims.start
    rw [dif_pos hm0, hs0, d.slice_collapsed 0 hc0]
    rfl
  | ⟨1, _⟩ =>
    show d.start (ix1 p) idx 1 + d.batchCoord (ix1 p) 1 + d.offCoord (ix1 p) 1 = min (idx (ix2 p (1 : Fin 2))).toInt.toNat (N1 - 1)
    rw [GatherDims.batchCoord_eq_zero _ _ _ (hb 1), GatherDims.offCoord_eq_zero _ _ _ hk1]
    simp only [Nat.add_zero]
    unfold GatherDims.start
    rw [dif_pos hm1, hs1, d.slice_collapsed 1 hc1]
    rfl

end Cert.Lib.PointGather
-- ==== Proof.RefValue.lean ====
/-
  The reference, read at an index. Its stages: the rows' squared lengths, their square roots, the table divided row by
  row, the 8192 × 8192 matrix `1 - u uᵀ`, the index words (a negative one shifted up by 8192: none is, in the domain),
  paired into 262144 × 2, the two selections of entries (a, p) and (a, q), their difference plus one, the maximum with
  zero, the sum and the division by 262144. In the domain every stage is a real number and the result is the mean cost.
-/
import proofs.«403355_j41497974014034_2_alg».proof.Proof.Spec
import proofs.«403355_j41497974014034_2_alg».proof.Proof.RefMatrix
import proofs.«403355_j41497974014034_2_alg».proof.Proof.LibPointGather
import proofs.«403355_j41497974014034_2_alg».proof.Proof.Consts
import proofs.«403355_j41497974014034_2_alg».proof.Proof.Gen.ReferenceIdeal.Run
import proofs.«403355_j41497974014034_2_alg».proof.Proof.Gen.ReferenceIdeal.Read
import Idealize.ShloMosaic.Lib.Pipeline.Value
import Idealize.ShloMosaic.Lib.ValueIdx
import Idealize.ShloMosaic.Lib.StableHlo.Predicate

noncomputable section

open scoped BigOperators

namespace Cert.Triplet.Ref

open Cert.ReferenceIdeal Cert.ReferenceIdeal.Gen Cert.ReferenceIdeal.Read
open Idealize.ShloMosaic Idealize.ShloMosaic.TcCoe Idealize.ShloMosaic.ValueIdx Idealize.SL.Sem

/-- A word below 8192 is not negative as a signed integer, so the shift of negative words keeps it. -/
theorem word_keep (w : BitVec 32) (h : w.toNat < 8192) :
    Scalar.select (IntOp.cmpi .slt w 0#32) (IntOp.addi w 8192#32) w = w := by
  have hn : ¬ IntOp.cmpi .slt w 0#32 = 1#1 := by
    rw [StableHlo.Predicate.slt_iff_toNat (by omega) (by decide)]
    simp
  rw [eq_zero_of_ne_one hn, select_zero]

/-- A word below 8192, read signed and clamped into the rows, names its own row. -/
theorem word_row (w : BitVec 32) (h : w.toNat < 8192) (hlt : min w.toInt.toNat (8192 - 1) < 8192) :
    (⟨min w.toInt.toNat (8192 - 1), hlt⟩ : Fin 8192) = rowOf w := by
  apply Fin.ext
  show min w.toInt.toNat (8192 - 1) = w.toNat % 8192
  rw [StableHlo.Predicate.toInt_eq_toNat_of_lt (by omega), Int.toNat_natCast]
  omega

/-- The index the column of words reads: coordinate `t` of the pair array's first axis. -/
theorem col_idx (t : Fin 262144) (c : Fin 1) : idx_main_v17 (ix2 t c) = ix1 t := by
  funext d; match d with | ⟨0, _⟩ => rfl

/-- In the domain the shift of negative words keeps the anchor word. -/
theorem v11_keep (x1 : S262144.Idx → BitVec 32) (i : S262144.Idx) (h : (x1 i).toNat < 8192) :
    val_main_v11 (F := Ideal) x1 i = x1 i := by
  rw [val_main_v11_apply, val_main_v8_apply, val_main_v10_apply, val_main_v7_apply, val_main_v9_apply,
    val_main_c_apply, val_main_c_0_apply]
  exact word_keep _ h

/-- In the domain the shift of negative words keeps the positive word. -/
theorem v16_keep (x2 : S262144.Idx → BitVec 32) (i : S262144.Idx) (h : (x2 i).toNat < 8192) :
    val_main_v16 (F := Ideal) x2 i = x2 i := by
  rw [val_main_v16_apply, val_main_v13_apply, val_main_v15_apply, val_main_v12_apply, val_main_v14_apply,
    val_main_c_1_apply, val_main_c_2_apply]
  exact word_keep _ h

/-- In the domain the shift of negative words keeps the anchor word (its second reading). -/
theorem v25_keep (x1 : S262144.Idx → BitVec 32) (i : S262144.Idx) (h : (x1 i).toNat < 8192) :
    val_main_v25 (F := Ideal) x1 i = x1 i := by
  rw [val_main_v25_apply, val_main_v22_apply, val_main_v24_apply, val_main_v21_apply, val_main_v23_apply,
    val_main_c_3_apply, val_main_c_4_apply]
  exact word_keep _ h

/-- In the domain the shift of negative words keeps the negative word. -/
theorem v30_keep (x3 : S262144.Idx → BitVec 32) (i : S262144.Idx) (h : (x3 i).toNat < 8192) :
    val_main_v30 (F := Ideal) x3 i = x3 i := by
  rw [val_main_v30_apply, val_main_v27_apply, val_main_v29_apply, val_main_v26_apply, val_main_v28_apply,
    val_main_c_5_apply, val_main_c_6_apply]
  exact word_keep _ h

/-- Two columns joined along the second axis: entry (t, 0) is the first column's entry `t`. -/
theorem pair_fst (a b : S262144x1.Idx → BitVec 32) (t : Fin 262144) :
    concatenate S262144x2 1 [⟨S262144x1, a⟩, ⟨S262144x1, b⟩] concatenates_S262144x1_S262144x1_S262144x2_d1
      (ix2 t (0 : Fin 2)) = a (ix2 t (0 : Fin 1)) := by
  refine concatenate_pair_apply_left (1 : Fin 2) a b concatenates_S262144x1_S262144x1_S262144x2_d1
    (ix2 t (0 : Fin 2)) rfl (ix2 t (0 : Fin 1)) ?_
  intro c; match c with
    | ⟨0, _⟩ => rfl
    | ⟨1, _⟩ => rfl

/-- Two columns joined along the second axis: entry (t, 1) is the second column's entry `t`. -/
theorem pair_snd (a b : S262144x1.Idx → BitVec 32) (t : Fin 262144) :
    concatenate S262144x2 1 [⟨S262144x1, a⟩, ⟨S262144x1, b⟩] concatenates_S262144x1_S262144x1_S262144x2_d1
      (ix2 t (1 : Fin 2)) = b (ix2 t (0 : Fin 1)) := by
  refine concatenate_pair_apply_right (1 : Fin 2) a b concatenates_S262144x1_S262144x1_S262144x2_d1
    (ix2 t (1 : Fin 2)) rfl rfl (ix2 t (0 : Fin 1)) ?_ ?_
  · intro c hc; match c, hc with
      | ⟨0, _⟩, _ => rfl
      | ⟨1, _⟩, hc => exact absurd rfl hc
  · rfl

/-- The point take at two words below 8192: the table at the rows the words name. -/
theorem take_rows (X : S8192x8192.Idx → EReal) (idx : S262144x2.Idx → BitVec 32) (t : Fin 262144) (w1 w2 : BitVec 32)
    (e1 : idx (ix2 t (0 : Fin 2)) = w1) (e2 : idx (ix2 t (1 : Fin 2)) = w2) (h1 : w1.toNat < 8192) (h2 : w2.toNat < 8192) :
    Host.gather gather_S8192x8192_S262144x2_S262144_n_01_n_n_01_1_11 X idx (ix1 t) = X (ix2 (rowOf w1) (rowOf w2)) := by
  subst e1 e2
  refine (Cert.Lib.PointGather.gather_points gather_S8192x8192_S262144x2_S262144_n_01_n_n_01_1_11 rfl rfl rfl rfl rfl
    X idx t (by norm_num) (by norm_num)).trans ?_
  rw [word_row _ h1, word_row _ h2]

/-- The selection of entries (anchor, positive): the matrix at the rows the two words name. -/
theorem v20_at (x0 : S8192x512.Idx → EReal) (x1 x2 : S262144.Idx → BitVec 32) (t : Fin 262144)
    (h1 : (x1 (ix1 t)).toNat < 8192) (h2 : (x2 (ix1 t)).toNat < 8192) :
    val_main_v20 (F := Ideal) x0 x1 x2 (ix1 t)
      = val_main_v6 (F := Ideal) x0 (ix2 (rowOf (x1 (ix1 t))) (rowOf (x2 (ix1 t)))) := by
  unfold val_main_v20 val_main_v19
  refine take_rows _ _ t _ _ ?_ ?_ h1 h2
  · rw [pair_fst, val_main_v17_apply, col_idx, v11_keep _ _ h1]
  · rw [pair_snd, val_main_v18_apply]
    exact (congrArg (val_main_v16 (F := Ideal) x2) (col_idx t 0)).trans (v16_keep _ _ h2)

/-- The selection of entries (anchor, negative): the matrix at the rows the two words name. -/
theorem v34_at (x0 : S8192x512.Idx → EReal) (x1 x3 : S262144.Idx → BitVec 32) (t : Fin 262144)
    (h1 : (x1 (ix1 t)).toNat < 8192) (h3 : (x3 (ix1 t)).toNat < 8192) :
    val_main_v34 (F := Ideal) x0 x1 x3 (ix1 t)
      = val_main_v6 (F := Ideal) x0 (ix2 (rowOf (x1 (ix1 t))) (rowOf (x3 (ix1 t)))) := by
  unfold val_main_v34 val_main_v33
  refine take_rows _ _ t _ _ ?_ ?_ h1 h3
  · rw [pair_fst, val_main_v31_apply]
    exact (congrArg (val_main_v25 (F := Ideal) x1) (col_idx t 0)).trans (v25_keep _ _ h1)
  · rw [pair_snd, val_main_v32_apply]
    exact (congrArg (val_main_v30 (F := Ideal) x3) (col_idx t 0)).trans (v30_keep _ _ h3)

/-- The cost of a triplet from the two selected entries: `(1 - c_ap) - (1 - c_aq) + 1 = c_aq - c_ap + 1`, then the
    maximum with zero, all in the reals. -/
theorem cost_coe (cp cq : ℝ) :
    max (((1 - cp : ℝ) : EReal) - ((1 - cq : ℝ) : EReal) + ((1 : ℝ) : EReal)) 0 = ((max (cq - cp + 1) 0 : ℝ) : EReal) := by
  rw [← EReal.coe_sub, ← EReal.coe_add, ← EReal.coe_zero, ← EReal.coe_strictMono.monotone.map_max]
  congr 2; ring

/-- In the domain, entry `t` of the costs is the cost of triplet `t` on the unit rows. -/
theorem v38_at (x0 : S8192x512.Idx → EReal) (x1 x2 x3 : S262144.Idx → BitVec 32) (h : Dom x0 x1 x2 x3) (t : Fin 262144) :
    val_main_v38 (F := Ideal) x0 x1 x2 x3 (ix1 t)
      = ((lossU (unitRow (xr x0)) (rowOf (x1 (ix1 t))) (rowOf (x2 (ix1 t))) (rowOf (x3 (ix1 t))) : ℝ) : EReal) := by
  rw [val_main_v38_apply, val_main_v37_apply, val_main_v35_apply, val_main_v36_apply, val_main_cst_7_apply,
    val_main_call1_v0_apply, val_main_call1_cst_apply, v20_at x0 x1 x2 t (h.ra t) (h.rp t), v34_at x0 x1 x3 t (h.ra t) (h.rq t),
    matrix_apply x0 h.fin h.pos, matrix_apply x0 h.fin h.pos]
  simp only [Ideal.maximumf_def, Ideal.addf_def, Ideal.subf_def, Ideal.ofBits_def, Consts.ofBits_one, Ideal.ofBits_zero_f32]
  exact cost_coe _ _

/-- The triplet numbers as the indices of the array of costs. -/
def tripletIdx : Fin 262144 ≃ S262144.Idx where
  toFun := ix1
  invFun := fun j => j 0
  left_inv := fun t => rfl
  right_inv := fun j => (eq_ix1 j).symm

/-- A finite sum of real numbers, taken in the extended reals, is the real sum. -/
theorem sum_coe {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- In the domain the sum of the array of costs is the summed cost of all triplets. -/
theorem v38_sum (x0 : S8192x512.Idx → EReal) (x1 x2 x3 : S262144.Idx → BitVec 32) (h : Dom x0 x1 x2 x3) :
    ∑ j : S262144.Idx, val_main_v38 (F := Ideal) x0 x1 x2 x3 j
      = ((totalLoss (unitRow (xr x0)) (fun t => rowOf (x1 (ix1 t))) (fun t => rowOf (x2 (ix1 t)))
          (fun t => rowOf (x3 (ix1 t))) : ℝ) : EReal) := by
  rw [← Equiv.sum_comp tripletIdx]
  refine (Finset.sum_congr rfl (fun t _ => v38_at x0 x1 x2 x3 h t)).trans ?_
  rw [sum_coe]
  rfl

/-- In the domain the reference's result is the mean triplet cost. -/
theorem ref_value (x0 : S8192x512.Idx → EReal) (x1 x2 x3 : S262144.Idx → BitVec 32) (h : Dom x0 x1 x2 x3) :
    val_main_v40 (F := Ideal) x0 x1 x2 x3 = fun _ => ((spec x0 x1 x2 x3 : ℝ) : EReal) := by
  funext i
  rw [val_main_v40_apply, val_main_v39_apply, val_main_cst_8_apply, val_main_cst_9_apply, v38_sum x0 x1 x2 x3 h]
  simp only [Ideal.hostDivf_def, Ideal.ofBits_def, Ideal.ofBits_zero_f32, Consts.ofBits_262144, zero_add]
  rw [Ideal.div_coe (by norm_num), ← EReal.coe_mul, mul_one_div]
  rfl

end Cert.Triplet.Ref

end
-- ==== Proof.lean ====
/-
  The mean triplet cost, two ways. Given a table of 8192 rows of 512 finite numbers, none of them a zero row, and three
  arrays of 262144 row numbers (anchor, positive, negative), both programs compute the mean over the triplets of
  `max (cos (a, q) - cos (a, p) + 1) 0`, where `cos` is the inner product of rows scaled to unit length.

  The kernel scales the rows once (`x · (Σ x²)^(-1/2)`), selects each triplet's three rows by a 0/1 matrix product,
  takes the two inner products and the cost, and adds the costs up in two groups of 256 steps of 512 triplets; the host
  adds the two group sums and divides by 262144. The reference scales the rows by `x / √(Σ x²)`, forms the whole
  8192 × 8192 matrix `1 - u uᵀ`, selects the entries (a, p) and (a, q) and takes
  `max ((1 - cos (a, p)) - (1 - cos (a, q)) + 1) 0`, then the mean. Over the reals these agree: for a positive `s`,
  `s^(-1/2)` is `1 / √s`; the 0/1 product selects exactly the row its index word names when the word is a row
  number; the two `1 -` cancel; and the two groups' steps run over every triplet once.

  The domain is the precondition's: finite entries, every row's squared length positive (the reference divides by its
  root), every index word in [0, 8192) (the reference indexes the matrix with them). Both runs are then stated with the
  same result, the mean cost as a real number. The three frames are the programs' generated runs; the kernel's
  idealization rewrote nothing, so `preserves` is trivial.
-/
import proofs.«403355_j41497974014034_2_alg».proof.Defs
import proofs.«403355_j41497974014034_2_alg».proof.Proof.Gen.Kernel
import proofs.«403355_j41497974014034_2_alg».proof.Proof.Gen.Kernel.Skeleton
import proofs.«403355_j41497974014034_2_alg».proof.Proof.Gen.Kernel.Launch
import proofs.«403355_j41497974014034_2_alg».proof.Proof.Gen.Kernel.Points
import proofs.«403355_j41497974014034_2_alg».proof.Proof.Gen.Kernel.Frame
import proofs.«403355_j41497974014034_2_alg».proof.Proof.Gen.KernelIdeal
import proofs.«403355_j41497974014034_2_alg».proof.Proof.Gen.KernelIdeal.Skeleton
import proofs.«403355_j41497974014034_2_alg».proof.Proof.Gen.KernelIdeal.Launch
import proofs.«403355_j41497974014034_2_alg».proof.Proof.Gen.KernelIdeal.Points
import proofs.«403355_j41497974014034_2_alg».proof.Proof.Gen.KernelIdeal.Frame
import proofs.«403355_j41497974014034_2_alg».proof.Proof.Gen.ReferenceIdeal
import proofs.«403355_j41497974014034_2_alg».proof.Proof.Gen.ReferenceIdeal.Run
import proofs.«403355_j41497974014034_2_alg».proof.Proof.Gen.ReferenceIdeal.Read
import proofs.«403355_j41497974014034_2_alg».proof.Proof.Gen.Pre_finite_inputs
import proofs.«403355_j41497974014034_2_alg».proof.Proof.Spec
import proofs.«403355_j41497974014034_2_alg».proof.Proof.PreDom
import proofs.«403355_j41497974014034_2_alg».proof.Proof.KernelRun
import proofs.«403355_j41497974014034_2_alg».proof.Proof.KernelValue
import proofs.«403355_j41497974014034_2_alg».proof.Proof.RefValue
import Idealize.ShloMosaic.Adequacy
import Idealize.ShloMosaic.Init

noncomputable section

namespace Cert.Proof

open Idealize.ShloMosaic Idealize.SL.Sem Cert.Triplet

/-- The kernel at the word level runs and keeps its arguments: its generated frame. -/
theorem frame_k [Cert.Kernel.Facts] [Cert.Pre_finite_inputs.Facts] : Cert.frame_Kernel :=
  fun m ρ _ => Cert.Kernel.Gen.frame m ρ

/-- The idealized kernel likewise. -/
theorem frame_ki [Cert.KernelIdeal.Facts] [Cert.Pre_finite_inputs.Facts] : Cert.frame_KernelIdeal :=
  fun m ρ _ => Cert.KernelIdeal.Gen.frame m ρ

/-- The reference has no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end at the mean triplet cost of the same arguments. -/
theorem algebraic [Cert.KernelIdeal.Facts] [Cert.ReferenceIdeal.Facts] [Cert.Pre_finite_inputs.Facts] :
    Cert.algebraic_KernelIdeal_ReferenceIdeal := by
  intro m ρ m' ρ' hpre hagree
  have dom : ∀ c : Dev Cert.KernelIdeal.nD,
      Dom (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) :=
    fun c => dom_of_pre _ _ _ _ (hpre c)
  refine ⟨fun c _ => ((spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) : ℝ) : EReal), ?_, ?_⟩
  · exact (θ_run Cert.KernelIdeal.defs _ _).mono
      (fun r h c => ⟨(h c).1.trans (Kernel.kernel_value m ρ c (dom c)), (h c).2⟩)
      (Kernel.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v40_eq, (hagree c).1, (hagree c).2.1, (hagree c).2.2.1, (hagree c).2.2.2]
    exact Ref.ref_value _ _ _ _ (dom c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
